-- ==== Defs.lean ====
def Pre_Kernel [hPre_any_inputs : Cert.Pre_any_inputs.Facts] (m : (ℓ : Loc Cert.Kernel.nD Cert.Kernel.τ Cert.Kernel.sig) → Buf (Elt Bits) ℓ) : Prop :=
  ∀ c : Dev Cert.Kernel.nD,
    (Cert.Pre_any_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_any_inputs : Cert.Pre_any_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_any_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_any_inputs : Cert.Pre_any_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_any_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_any_inputs : Cert.Pre_any_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_any_inputs : Cert.Pre_any_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S64x32768 .f32 .bf16
  ∧ IdealRules.truncf_extf.Statement Cert.KernelIdeal.S64x32768 .f32 .bf16

def algebraic_KernelIdeal_ReferenceIdeal [hKernelIdeal : Cert.KernelIdeal.Facts] [hReferenceIdeal : Cert.ReferenceIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_any_inputs : Cert.Pre_any_inputs.Facts),
    frame_Kernel (hKernel := hKernel) (hPre_any_inputs := hPre_any_inputs)
    ∧ frame_KernelIdeal (hKernelIdeal := hKernelIdeal) (hPre_any_inputs := hPre_any_inputs)
    ∧ frame_ReferenceIdeal (hReferenceIdeal := hReferenceIdeal) (hPre_any_inputs := hPre_any_inputs)
    ∧ preserves_Kernel_KernelIdeal
    ∧ algebraic_KernelIdeal_ReferenceIdeal (hKernelIdeal := hKernelIdeal) (hReferenceIdeal := hReferenceIdeal) (hPre_any_inputs := hPre_any_inputs)
-- ==== Pre_any_inputs.lean ====
abbrev S1024x1024 : Shape := ⟨2, ![1024, 1024]⟩
abbrev S_ : Shape := ⟨0, ![]⟩

class Facts : Prop where

variable [Facts]

def fn {F : FTy → Type} [FloatOps F] (main_arg0 : IVec S1024x1024 32) (main_arg1 : IVec S1024x1024 32) : IVec S_ 1 :=
  let main_c : IVec S_ 1 := constantI S_ 1 1#1
  main_c
-- ==== Kernel.lean ====
abbrev S1024x1024 : Shape := ⟨2, ![1024, 1024]⟩
abbrev S2x64x64 : Shape := ⟨3, ![2, 64, 64]⟩
abbrev S2x64x1 : Shape := ⟨3, ![2, 64, 1]⟩
abbrev S32x1024 : Shape := ⟨2, ![32, 1024]⟩
abbrev S1x64x64 : Shape := ⟨3, ![1, 64, 64]⟩
abbrev S1x64x1 : Shape := ⟨3, ![1, 64, 1]⟩
abbrev S64x64 : Shape := ⟨2, ![64, 64]⟩
abbrev S64x1 : Shape := ⟨2, ![64, 1]⟩
abbrev S1x32768 : Shape := ⟨2, ![1, 32768]⟩
abbrev S64x32768 : Shape := ⟨2, ![64, 32768]⟩
abbrev S32768x64 : Shape := ⟨2, ![32768, 64]⟩
abbrev S64 : Shape := ⟨1, ![64]⟩
abbrev S_ : Shape := ⟨0, ![]⟩
abbrev S1x64 : Shape := ⟨2, ![1, 64]⟩

abbrev nBuf : Space → Nat
  | .hbm => 74
  | .vmem => 10
  | .smem => 0
  | _ => 0

abbrev bufTy : (tb : Table) → Fin (tcTables nBuf tb) → BufTy
  | .hbm, ⟨0, _⟩ => ⟨S1024x1024, .i32⟩
  | .hbm, ⟨1, _⟩ => ⟨S1024x1024, .i32⟩
  | .hbm, ⟨2, _⟩ => ⟨S2x64x64, .f32⟩
  | .hbm, ⟨3, _⟩ => ⟨S2x64x1, .f32⟩
  | .hbm, ⟨4, _⟩ => ⟨S2x64x1, .f32⟩
  | .hbm, ⟨5, _⟩ => ⟨S_, .f32⟩
  | .hbm, ⟨6, _⟩ => ⟨S64x64, .f32⟩
  | .hbm, ⟨7, _⟩ => ⟨S_, .f32⟩
  | .hbm, ⟨8, _⟩ => ⟨S64x1, .f32⟩
  | .hbm, ⟨9, _⟩ => ⟨S64, .f32⟩
  | .hbm, ⟨10, _⟩ => ⟨S_, .f32⟩
  | .hbm, ⟨11, _⟩ => ⟨S64x1, .f32⟩
  | .hbm, ⟨12, _⟩ => ⟨S64, .f32⟩
  | .hbm, ⟨13, _⟩ => ⟨S64x1, .f32⟩
  | .hbm, ⟨14, _⟩ => ⟨S1x64, .f32⟩
  | .hbm, ⟨15, _⟩ => ⟨S64x64, .f32⟩
  | .hbm, ⟨16, _⟩ => ⟨S64x64, .f32⟩
  | .hbm, ⟨17, _⟩ => ⟨S64x64, .f32⟩
  | .hbm, ⟨18, _⟩ => ⟨S64x64, .f32⟩
  | .hbm, ⟨19, _⟩ => ⟨S_, .f32⟩
  | .hbm, ⟨20, _⟩ => ⟨S64x64, .f32⟩
  | .hbm, ⟨21, _⟩ => ⟨S64x64, .i1⟩
  | .hbm, ⟨22, _⟩ => ⟨S_, .f32⟩
  | .hbm, ⟨23, _⟩ => ⟨S64x64, .f32⟩
  | .hbm, ⟨24, _⟩ => ⟨S64x64, .f32⟩
  | .hbm, ⟨25, _⟩ => ⟨S64x64, .f32⟩
  | .hbm, ⟨26, _⟩ => ⟨S_, .f32⟩
  | .hbm, ⟨27, _⟩ => ⟨S_, .f32⟩
  | .hbm, ⟨28, _⟩ => ⟨S64x64, .f32⟩
  | .hbm, ⟨29, _⟩ => ⟨S64x64, .f32⟩
  | .hbm, ⟨30, _⟩ => ⟨S_, .f32⟩
  | .hbm, ⟨31, _⟩ => ⟨S64, .f32⟩
  | .hbm, ⟨32, _⟩ => ⟨S64, .i1⟩
  | .hbm, ⟨33, _⟩ => ⟨S_, .f32⟩
  | .hbm, ⟨34, _⟩ => ⟨S64, .f32⟩
  | .hbm, ⟨35, _⟩ => ⟨S64, .i1⟩
  | .hbm, ⟨36, _⟩ => ⟨S_, .f32⟩
  | .hbm, ⟨37, _⟩ => ⟨S64, .f32⟩
  | .hbm, ⟨38, _⟩ => ⟨S_, .f32⟩
  | .hbm, ⟨39, _⟩ => ⟨S64, .f32⟩
  | .hbm, ⟨40, _⟩ => ⟨S_, .f32⟩
  | .hbm, ⟨41, _⟩ => ⟨S64, .f32⟩
  | .hbm, ⟨42, _⟩ => ⟨S64, .f32⟩
  | .hbm, ⟨43, _⟩ => ⟨S_, .f32⟩
  | .hbm, ⟨44, _⟩ => ⟨S_, .f32⟩
  | .hbm, ⟨45, _⟩ => ⟨S64, .f32⟩
  | .hbm, ⟨46, _⟩ => ⟨S64, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S64, .f32⟩
  | .hbm, ⟨51, _⟩ => ⟨S64, .f32⟩
  | .hbm, ⟨52, _⟩ => ⟨S_, .f32⟩
  | .hbm, ⟨53, _⟩ => ⟨S_, .f32⟩
  | .hbm, ⟨54, _⟩ => ⟨S64, .f32⟩
  | .hbm, ⟨55, _⟩ => ⟨S64, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S64, .f32⟩
  | .hbm, ⟨60, _⟩ => ⟨S_, .f32⟩
  | .hbm, ⟨61, _⟩ => ⟨S_, .f32⟩
  | .hbm, ⟨62, _⟩ => ⟨S64, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .i1⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .local _ .vmem, ⟨0, _⟩ => ⟨S32x1024, .i32⟩
  | .local _ .vmem, ⟨1, _⟩ => ⟨S32x1024, .i32⟩
  | .local _ .vmem, ⟨2, _⟩ => ⟨S32x1024, .i32⟩
  | .local _ .vmem, ⟨3, _⟩ => ⟨S32x1024, .i32⟩
  | .local _ .vmem, ⟨4, _⟩ => ⟨S1x64x64, .f32⟩
  | .local _ .vmem, ⟨5, _⟩ => ⟨S1x64x64, .f32⟩
  | .local _ .vmem, ⟨6, _⟩ => ⟨S1x64x1, .f32⟩
  | .local _ .vmem, ⟨7, _⟩ => ⟨S1x64x1, .f32⟩
  | .local _ .vmem, ⟨8, _⟩ => ⟨S1x64x1, .f32⟩
  | .local _ .vmem, ⟨9, _⟩ => ⟨S1x64x1, .f32⟩
  | _, _ => ⟨S1024x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_call0_v0 : Ref sig .tc := ⟨.hbm, 27, rfl⟩
abbrev main_call0_v1 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_cst_6 : Ref sig .tc := ⟨.hbm, 33, rfl⟩
abbrev main_v20 : Ref sig .tc := ⟨.hbm, 34, rfl⟩
abbrev main_v21 : Ref sig .tc := ⟨.hbm, 35, rfl⟩
abbrev main_cst_7 : Ref sig .tc := ⟨.hbm, 36, rfl⟩
abbrev main_v22 : Ref sig .tc := ⟨.hbm, 37, rfl⟩
abbrev main_cst_8 : Ref sig .tc := ⟨.hbm, 38, rfl⟩
abbrev main_v23 : Ref sig .tc := ⟨.hbm, 39, rfl⟩
abbrev main_cst_9 : Ref sig .tc := ⟨.hbm, 40, rfl⟩
abbrev main_v24 : Ref sig .tc := ⟨.hbm, 41, rfl⟩
abbrev main_v25 : Ref sig .tc := ⟨.hbm, 42, rfl⟩
abbrev main_cst_10 : Ref sig .tc := ⟨.hbm, 43, rfl⟩
abbrev main_call1_v0 : Ref sig .tc := ⟨.hbm, 44, rfl⟩
abbrev main_call1_v1 : Ref sig .tc := ⟨.hbm, 45, rfl⟩
abbrev main_v26 : Ref sig .tc := ⟨.hbm, 46, rfl⟩
abbrev main_cst_11 : Ref sig .tc := ⟨.hbm, 47, rfl⟩
abbrev main_v27 : Ref sig .tc := ⟨.hbm, 48, rfl⟩
abbrev main_cst_12 : Ref sig .tc := ⟨.hbm, 49, rfl⟩
abbrev main_v28 : Ref sig .tc := ⟨.hbm, 50, rfl⟩
abbrev main_v29 : Ref sig .tc := ⟨.hbm, 51, rfl⟩
abbrev main_cst_13 : Ref sig .tc := ⟨.hbm, 52, rfl⟩
abbrev main_call2_v0 : Ref sig .tc := ⟨.hbm, 53, rfl⟩
abbrev main_call2_v1 : Ref sig .tc := ⟨.hbm, 54, rfl⟩
abbrev main_v30 : Ref sig .tc := ⟨.hbm, 55, rfl⟩
abbrev main_cst_14 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_15 : Ref sig .tc := ⟨.hbm, 60, rfl⟩
abbrev main_v34 : Ref sig .tc := ⟨.hbm, 61, rfl⟩
abbrev main_v35 : Ref sig .tc := ⟨.hbm, 62, rfl⟩
abbrev main_cst_16 : Ref sig .tc := ⟨.hbm, 63, rfl⟩
abbrev main_v36 : Ref sig .tc := ⟨.hbm, 64, rfl⟩
abbrev main_v37 : Ref sig .tc := ⟨.hbm, 65, rfl⟩
abbrev main_cst_17 : Ref sig .tc := ⟨.hbm, 66, rfl⟩
abbrev main_v38 : Ref sig .tc := ⟨.hbm, 67, rfl⟩
abbrev main_cst_18 : Ref sig .tc := ⟨.hbm, 68, rfl⟩
abbrev main_v39 : Ref sig .tc := ⟨.hbm, 69, rfl⟩
abbrev main_v40 : Ref sig .tc := ⟨.hbm, 70, rfl⟩
abbrev main_cst_19 : Ref sig .tc := ⟨.hbm, 71, rfl⟩
abbrev main_call3_v0 : Ref sig .tc := ⟨.hbm, 72, rfl⟩
abbrev main_v41 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x64x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x64x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S64x64_S1x64x64 : S64x64.ShapeCasts S1x64x64
  inb_S1x64x1_S1x64x1_0_0_0 : ∀ a, (![0, 0, 0] : Fin 3 → Nat) a + S1x64x1.size a ≤ S1x64x1.size a
  h_S1x64x1 : 0 < S1x64x1.numel
  shapeCasts_S1x64x1_S64x1 : S1x64x1.ShapeCasts S64x1
  shapeCasts_S64x1_S1x64x1 : S64x1.ShapeCasts S1x64x1
  inb_S32x1024_S32x1024_0_0 : ∀ a, (![0, 0] : Fin 2 → Nat) a + S32x1024.size a ≤ S32x1024.size a
  h_S32x1024 : 0 < S32x1024.numel
  shapeCasts_S32x1024_S1x32768 : S32x1024.ShapeCasts S1x32768
  iota_S64x1_d0_w32 : S64x1.Iotas .tc 32 [0]
  broadcasts_S1x32768_S64x32768 : S1x32768.Broadcasts S64x32768
  broadcasts_S64x1_S64x32768 : S64x1.Broadcasts S64x32768
  natLt_1_32 : 1 < 32
  bitsLt_bf16_f32 : FTy.bits .bf16 < FTy.bits .f32
  transposes_S64x32768_p1_0_S32768x64 : S64x32768.Transposes [1, 0] S32768x64
  reduces_S64x32768_S64 : S64x32768.Reduces [1] S64
  shapeCasts_S64_S64x1 : S64.ShapeCasts S64x1
  reducesTo_S2x64x64_S64x64_d0 : S2x64x64.ReducesTo [0] S64x64
  h_S_ : 0 < S_.numel
  reducesTo_S2x64x1_S64x1_d0 : S2x64x1.ReducesTo [0] S64x1
  shapeCasts_S64x1_S64 : S64x1.ShapeCasts S64
  bcast_S64_S64x1_0 : S64.BroadcastsInDim S64x1 (![0] : Fin 1 → Fin S64x1.rank)
  bcast_S64_S1x64_1 : S64.BroadcastsInDim S1x64 (![1] : Fin 1 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  bcast_S_S64 : S_.BroadcastsInDim S64 (![] : Fin 0 → Fin S64.rank)
  reducesTo_S64x64_S64_d1 : S64x64.ReducesTo [1] S64
  reducesTo_S64x64_S64_d0 : S64x64.ReducesTo [0] S64
  reducesTo_S64_S_d0 : S64.ReducesTo [0] S_
  dot_S64x32768_S32768x64_S64x64_1_0_0_1_n_n_wf : DotDims.WF S64x32768 S32768x64 S64x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x1024.size a ≤ S1024x1024.size a
  hwx0_0 : ∀ i : grid0.Coords, EltTy.bits .i32 = 32 ∨ (Rect.block (s := S1024x1024) S32x1024.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x1024.size a ≤ S1024x1024.size a
  hwx0_1 : ∀ i : grid0.Coords, EltTy.bits .i32 = 32 ∨ (Rect.block (s := S1024x1024) S32x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x64.size a ≤ S2x64x64.size a
  hwx0_2 : ∀ i : grid0.Coords, EltTy.bits .f32 = 32 ∨ (Rect.block (s := S2x64x64) S1x64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x1.size a ≤ S2x64x1.size a
  hwx0_3 : ∀ i : grid0.Coords, EltTy.bits .f32 = 32 ∨ (Rect.block (s := S2x64x1) S1x64x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x1.size a ≤ S2x64x1.size a
  hwx0_4 : ∀ i : grid0.Coords, EltTy.bits .f32 = 32 ∨ (Rect.block (s := S2x64x1) S1x64x1.size (cc0_transform_4 i) (hinb0_4 i)).WholeWords (EltTy.packing .f32)

variable [Facts₀]

def dot_S64x32768_S32768x64_S64x64_1_0_0_1_n_n : DotDims S64x32768 S32768x64 S64x64 where
  lhsContracting := [1]
  rhsContracting := [0]
  lhsNonContracting := [0]
  rhsNonContracting := [1]
  lhsBatch := []
  rhsBatch := []
  wf := dot_S64x32768_S32768x64_S64x64_1_0_0_1_n_n_wf

abbrev win0_0 : Pipeline.Window sig grid0 :=
  Pipeline.Window.ofSpec (Memref.whole main_arg0) S32x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x64x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x64x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x64x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1024x1024 : Shape := ⟨2, ![1024, 1024]⟩
abbrev S64 : Shape := ⟨1, ![64]⟩
abbrev S_ : Shape := ⟨0, ![]⟩
abbrev S1048576 : Shape := ⟨1, ![1048576]⟩
abbrev S1x1048576 : Shape := ⟨2, ![1, 1048576]⟩
abbrev S64x1 : Shape := ⟨2, ![64, 1]⟩
abbrev S64x1048576 : Shape := ⟨2, ![64, 1048576]⟩
abbrev S64x64 : Shape := ⟨2, ![64, 64]⟩
abbrev S1x64 : Shape := ⟨2, ![1, 64]⟩

abbrev nBuf : Space → Nat
  | .hbm => 86
  | .vmem => 0
  | .smem => 0
  | _ => 0

abbrev bufTy : (tb : Table) → Fin (tcTables nBuf tb) → BufTy
  | .hbm, ⟨0, _⟩ => ⟨S1024x1024, .i32⟩
  | .hbm, ⟨1, _⟩ => ⟨S1024x1024, .i32⟩
  | .hbm, ⟨2, _⟩ => ⟨S64, .i32⟩
  | .hbm, ⟨3, _⟩ => ⟨S_, .i32⟩
  | .hbm, ⟨4, _⟩ => ⟨S64, .i32⟩
  | .hbm, ⟨5, _⟩ => ⟨S64, .i32⟩
  | .hbm, ⟨6, _⟩ => ⟨S1048576, .i32⟩
  | .hbm, ⟨7, _⟩ => ⟨S1x1048576, .i32⟩
  | .hbm, ⟨8, _⟩ => ⟨S64x1, .i32⟩
  | .hbm, ⟨9, _⟩ => ⟨S64x1048576, .i32⟩
  | .hbm, ⟨10, _⟩ => ⟨S64x1048576, .i32⟩
  | .hbm, ⟨11, _⟩ => ⟨S64x1048576, .i1⟩
  | .hbm, ⟨12, _⟩ => ⟨S64x1048576, .f32⟩
  | .hbm, ⟨13, _⟩ => ⟨S1048576, .i32⟩
  | .hbm, ⟨14, _⟩ => ⟨S1x1048576, .i32⟩
  | .hbm, ⟨15, _⟩ => ⟨S64x1, .i32⟩
  | .hbm, ⟨16, _⟩ => ⟨S64x1048576, .i32⟩
  | .hbm, ⟨17, _⟩ => ⟨S64x1048576, .i32⟩
  | .hbm, ⟨18, _⟩ => ⟨S64x1048576, .i1⟩
  | .hbm, ⟨19, _⟩ => ⟨S64x1048576, .f32⟩
  | .hbm, ⟨20, _⟩ => ⟨S64x64, .f32⟩
  | .hbm, ⟨21, _⟩ => ⟨S_, .f32⟩
  | .hbm, ⟨22, _⟩ => ⟨S64, .f32⟩
  | .hbm, ⟨23, _⟩ => ⟨S_, .f32⟩
  | .hbm, ⟨24, _⟩ => ⟨S64, .f32⟩
  | .hbm, ⟨25, _⟩ => ⟨S64x1, .f32⟩
  | .hbm, ⟨26, _⟩ => ⟨S1x64, .f32⟩
  | .hbm, ⟨27, _⟩ => ⟨S64x64, .f32⟩
  | .hbm, ⟨28, _⟩ => ⟨S64x64, .f32⟩
  | .hbm, ⟨29, _⟩ => ⟨S64x64, .f32⟩
  | .hbm, ⟨30, _⟩ => ⟨S64x64, .f32⟩
  | .hbm, ⟨31, _⟩ => ⟨S_, .f32⟩
  | .hbm, ⟨32, _⟩ => ⟨S64x64, .f32⟩
  | .hbm, ⟨33, _⟩ => ⟨S64x64, .i1⟩
  | .hbm, ⟨34, _⟩ => ⟨S_, .f32⟩
  | .hbm, ⟨35, _⟩ => ⟨S64x64, .f32⟩
  | .hbm, ⟨36, _⟩ => ⟨S64x64, .f32⟩
  | .hbm, ⟨37, _⟩ => ⟨S64x64, .f32⟩
  | .hbm, ⟨38, _⟩ => ⟨S_, .f32⟩
  | .hbm, ⟨39, _⟩ => ⟨S_, .f32⟩
  | .hbm, ⟨40, _⟩ => ⟨S64x64, .f32⟩
  | .hbm, ⟨41, _⟩ => ⟨S64x64, .f32⟩
  | .hbm, ⟨42, _⟩ => ⟨S_, .f32⟩
  | .hbm, ⟨43, _⟩ => ⟨S64, .f32⟩
  | .hbm, ⟨44, _⟩ => ⟨S64, .i1⟩
  | .hbm, ⟨45, _⟩ => ⟨S_, .f32⟩
  | .hbm, ⟨46, _⟩ => ⟨S64, .f32⟩
  | .hbm, ⟨47, _⟩ => ⟨S64, .i1⟩
  | .hbm, ⟨48, _⟩ => ⟨S_, .f32⟩
  | .hbm, ⟨49, _⟩ => ⟨S64, .f32⟩
  | .hbm, ⟨50, _⟩ => ⟨S_, .f32⟩
  | .hbm, ⟨51, _⟩ => ⟨S64, .f32⟩
  | .hbm, ⟨52, _⟩ => ⟨S_, .f32⟩
  | .hbm, ⟨53, _⟩ => ⟨S64, .f32⟩
  | .hbm, ⟨54, _⟩ => ⟨S64, .f32⟩
  | .hbm, ⟨55, _⟩ => ⟨S_, .f32⟩
  | .hbm, ⟨56, _⟩ => ⟨S_, .f32⟩
  | .hbm, ⟨57, _⟩ => ⟨S64, .f32⟩
  | .hbm, ⟨58, _⟩ => ⟨S64, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S64, .f32⟩
  | .hbm, ⟨63, _⟩ => ⟨S64, .f32⟩
  | .hbm, ⟨64, _⟩ => ⟨S_, .f32⟩
  | .hbm, ⟨65, _⟩ => ⟨S_, .f32⟩
  | .hbm, ⟨66, _⟩ => ⟨S64, .f32⟩
  | .hbm, ⟨67, _⟩ => ⟨S64, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S64, .f32⟩
  | .hbm, ⟨72, _⟩ => ⟨S_, .f32⟩
  | .hbm, ⟨73, _⟩ => ⟨S_, .f32⟩
  | .hbm, ⟨74, _⟩ => ⟨S64, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .i1⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | _, _ => ⟨S1024x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst : Ref sig .tc := ⟨.hbm, 21, rfl⟩
abbrev main_v18 : Ref sig .tc := ⟨.hbm, 22, rfl⟩
abbrev main_cst_0 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst_1 : Ref sig .tc := ⟨.hbm, 31, rfl⟩
abbrev main_v26 : Ref sig .tc := ⟨.hbm, 32, rfl⟩
abbrev main_v27 : Ref sig .tc := ⟨.hbm, 33, rfl⟩
abbrev main_cst_2 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_cst_8 : Ref sig .tc := ⟨.hbm, 52, rfl⟩
abbrev main_v38 : Ref sig .tc := ⟨.hbm, 53, rfl⟩
abbrev main_v39 : Ref sig .tc := ⟨.hbm, 54, rfl⟩
abbrev main_cst_9 : Ref sig .tc := ⟨.hbm, 55, rfl⟩
abbrev main_call1_v0 : Ref sig .tc := ⟨.hbm, 56, rfl⟩
abbrev main_call1_v1 : Ref sig .tc := ⟨.hbm, 57, rfl⟩
abbrev main_v40 : Ref sig .tc := ⟨.hbm, 58, rfl⟩
abbrev main_cst_10 : Ref sig .tc := ⟨.hbm, 59, rfl⟩
abbrev main_v41 : Ref sig .tc := ⟨.hbm, 60, rfl⟩
abbrev main_cst_11 : Ref sig .tc := ⟨.hbm, 61, rfl⟩
abbrev main_v42 : Ref sig .tc := ⟨.hbm, 62, rfl⟩
abbrev main_v43 : Ref sig .tc := ⟨.hbm, 63, rfl⟩
abbrev main_cst_12 : Ref sig .tc := ⟨.hbm, 64, rfl⟩
abbrev main_call2_v0 : Ref sig .tc := ⟨.hbm, 65, rfl⟩
abbrev main_call2_v1 : Ref sig .tc := ⟨.hbm, 66, rfl⟩
abbrev main_v44 : Ref sig .tc := ⟨.hbm, 67, rfl⟩
abbrev main_cst_13 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_14 : Ref sig .tc := ⟨.hbm, 72, rfl⟩
abbrev main_v48 : Ref sig .tc := ⟨.hbm, 73, rfl⟩
abbrev main_v49 : Ref sig .tc := ⟨.hbm, 74, rfl⟩
abbrev main_cst_15 : Ref sig .tc := ⟨.hbm, 75, rfl⟩
abbrev main_v50 : Ref sig .tc := ⟨.hbm, 76, rfl⟩
abbrev main_v51 : Ref sig .tc := ⟨.hbm, 77, rfl⟩
abbrev main_cst_16 : Ref sig .tc := ⟨.hbm, 78, rfl⟩
abbrev main_v52 : Ref sig .tc := ⟨.hbm, 79, rfl⟩
abbrev main_cst_17 : Ref sig .tc := ⟨.hbm, 80, rfl⟩
abbrev main_v53 : Ref sig .tc := ⟨.hbm, 81, rfl⟩
abbrev main_v54 : Ref sig .tc := ⟨.hbm, 82, rfl⟩
abbrev main_cst_18 : Ref sig .tc := ⟨.hbm, 83, rfl⟩
abbrev main_call3_v0 : Ref sig .tc := ⟨.hbm, 84, rfl⟩
abbrev main_v55 : Ref sig .tc := ⟨.hbm, 85, rfl⟩

abbrev nD : Nat := 1
abbrev τ : Topo := Topo.v7x

variable {F : FTy → Type} [FloatOps F]

class Facts₀ : Prop where
  bcast_S_S64 : S_.BroadcastsInDim S64 (![] : Fin 0 → Fin S64.rank)
  shapeCasts_S1024x1024_S1048576 : S1024x1024.ShapeCasts S1048576
  bcast_S1048576_S1x1048576_1 : S1048576.BroadcastsInDim S1x1048576 (![1] : Fin 1 → Fin S1x1048576.rank)
  bcast_S64_S64x1_0 : S64.BroadcastsInDim S64x1 (![0] : Fin 1 → Fin S64x1.rank)
  bcast_S1x1048576_S64x1048576_0_1 : S1x1048576.BroadcastsInDim S64x1048576 (![0, 1] : Fin 2 → Fin S64x1048576.rank)
  bcast_S64x1_S64x1048576_0_1 : S64x1.BroadcastsInDim S64x1048576 (![0, 1] : Fin 2 → Fin S64x1048576.rank)
  reducesTo_S64x1048576_S64_d1 : S64x1048576.ReducesTo [1] S64
  h_S_ : 0 < S_.numel
  bcast_S64_S1x64_1 : S64.BroadcastsInDim S1x64 (![1] : Fin 1 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  reducesTo_S64x64_S64_d1 : S64x64.ReducesTo [1] S64
  reducesTo_S64x64_S64_d0 : S64x64.ReducesTo [0] S64
  reducesTo_S64_S_d0 : S64.ReducesTo [0] S_
  dot_S64x1048576_S64x1048576_S64x64_1_1_0_0_n_n_wf : DotDims.WF S64x1048576 S64x1048576 S64x64 [1] [1] [0] [0] [] []

variable [Facts₀]

def dot_S64x1048576_S64x1048576_S64x64_1_1_0_0_n_n : DotDims S64x1048576 S64x1048576 S64x64 where
  lhsContracting := [1]
  rhsContracting := [1]
  lhsNonContracting := [0]
  rhsNonContracting := [0]
  lhsBatch := []
  rhsBatch := []
  wf := dot_S64x1048576_S64x1048576_S64x64_1_1_0_0_n_n_wf

class Facts : Prop extends Facts₀ where

variable [Facts]
-- ==== Proof.Kernel.FrameBase.lean ====
/-
  The frame of `Kernel`, first part: what the body's runs and the launch share.

  @main is the kernel region followed by 69 host operations (eight stretches). The region's grid is 2 × 16: the first
  axis picks a half of the 1024 pixel rows, the second walks the sixteen 32-row tiles of that half. The three outputs are
  accumulators: block `c` of each is zeroed at tile 0 of half `c` and added to at every tile, and is written back after
  tile 15. Here: the buffers as the region finds them (`V`: the launch contents, nothing runs before the region), @main
  as the region continued by the later operations, that those operations touch only unscoped buffers, allocate nothing
  and never write one of the five arrays the region stages, each window's block at a point, the branch condition
  "tile index = 0" in closed form over the 32 points, and the staging memrefs the body is called with.
-/
import proofs.«107126_j81801947120084_1_alg».proof.Proof.Gen.Kernel.Launch
import proofs.«107126_j81801947120084_1_alg».proof.Proof.Gen.Kernel.Skeleton
import proofs.«107126_j81801947120084_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered, as a valuation: the launch contents (no host operation
    precedes the region). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- The host operations after the region, stretch by stretch: the two sums over the halves and what follows them. -/
abbrev tailOps : List (List (HloOp τ sig (Elt F))) :=
  [hostOps1, hostOps1_1, hostOps1_2, hostOps1_3, hostOps1_4, hostOps1_5, hostOps1_6, hostOps1_7]

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor

/-- @main is the region continued by the later operations (off the generated chain of its items). -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps (by simp only [List.Forall])
    (by simp only [List.Forall]) main_chain

/-- The later operations touch unscoped TensorCore buffers only: the arrays and the buffers that bypass the region. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)

/-- They allocate nothing. -/
theorem tail_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop

/-- No operation of this stretch writes one of the region's five arrays: each writes its own result buffer. -/
theorem hostOps1_keeps : ∀ op ∈ (hostOps1 : List (HloOp τ sig (Elt F))), ∀ w, Proc.devRef .tc (Pipeline.arrRef spec0 w) ∉ op.writes := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)
/-- No operation of this stretch writes one of the region's five arrays: each writes its own result buffer. -/
theorem hostOps1_1_keeps : ∀ op ∈ (hostOps1_1 : List (HloOp τ sig (Elt F))), ∀ w, Proc.devRef .tc (Pipeline.arrRef spec0 w) ∉ op.writes := by
  intro op hop
  simp only [hostOps1_1, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)
/-- No operation of this stretch writes one of the region's five arrays: each writes its own result buffer. -/
theorem hostOps1_2_keeps : ∀ op ∈ (hostOps1_2 : List (HloOp τ sig (Elt F))), ∀ w, Proc.devRef .tc (Pipeline.arrRef spec0 w) ∉ op.writes := by
  intro op hop
  simp only [hostOps1_2, List.mem_cons, List.mem_nil_iff, or_false] at hop
  rcases hop with rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)
/-- No operation of this stretch writes one of the region's five arrays: each writes its own result buffer. -/
theorem hostOps1_3_keeps : ∀ op ∈ (hostOps1_3 : List (HloOp τ sig (Elt F))), ∀ w, Proc.devRef .tc (Pipeline.arrRef spec0 w) ∉ op.writes := by
  intro op hop
  simp only [hostOps1_3, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)
/-- No operation of this stretch writes one of the region's five arrays: each writes its own result buffer. -/
theorem hostOps1_4_keeps : ∀ op ∈ (hostOps1_4 : List (HloOp τ sig (Elt F))), ∀ w, Proc.devRef .tc (Pipeline.arrRef spec0 w) ∉ op.writes := by
  intro op hop
  simp only [hostOps1_4, List.mem_cons, List.mem_nil_iff, or_false] at hop
  rcases hop with rfl | rfl | rfl | rfl | rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)
/-- No operation of this stretch writes one of the region's five arrays: each writes its own result buffer. -/
theorem hostOps1_5_keeps : ∀ op ∈ (hostOps1_5 : List (HloOp τ sig (Elt F))), ∀ w, Proc.devRef .tc (Pipeline.arrRef spec0 w) ∉ op.writes := by
  intro op hop
  simp only [hostOps1_5, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)
/-- No operation of this stretch writes one of the region's five arrays: each writes its own result buffer. -/
theorem hostOps1_6_keeps : ∀ op ∈ (hostOps1_6 : List (HloOp τ sig (Elt F))), ∀ w, Proc.devRef .tc (Pipeline.arrRef spec0 w) ∉ op.writes := by
  intro op hop
  simp only [hostOps1_6, List.mem_cons, List.mem_nil_iff, or_false] at hop
  rcases hop with rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)
/-- No operation of this stretch writes one of the region's five arrays: each writes its own result buffer. -/
theorem hostOps1_7_keeps : ∀ op ∈ (hostOps1_7 : List (HloOp τ sig (Elt F))), ∀ w, Proc.devRef .tc (Pipeline.arrRef spec0 w) ∉ op.writes := by
  intro op hop
  simp only [hostOps1_7, List.mem_cons, List.mem_nil_iff, or_false] at hop
  rcases hop with rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)

/-- And so none of the later operations writes an array of the region. -/
theorem tail_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl | rfl | rfl | rfl | rfl | rfl | rfl
  · exact hostOps1_keeps op hop
  · exact hostOps1_1_keeps op hop
  · exact hostOps1_2_keeps op hop
  · exact hostOps1_3_keeps op hop
  · exact hostOps1_4_keeps op hop
  · exact hostOps1_5_keeps op hop
  · exact hostOps1_6_keeps op hop
  · exact hostOps1_7_keeps op hop

theorem V_main_arg0 (c : Dev nD) : V m c main_arg0 = m ((c : Thread nD τ).loc main_arg0) := rfl
theorem V_main_arg1 (c : Dev nD) : V m c main_arg1 = m ((c : Thread nD τ).loc main_arg1) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its 32-row tile at every point, for any proof data whose array is
    the region-entry contents and whose body leaves the tile in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch condition -/

/-- The body's one `scf.if`: "the tile index (grid coordinate 1) is zero". -/
abbrev cond0_0 (i : grid0.Coords) : Prop := (Scalar.cmpi .ne (Scalar.extui (Scalar.cmpi .eq (BitVec.ofNat 32 (i 1).val) 0#32)) 0#32) = 1#1
/-- It holds at the first tile of each half: points 0 and 16. -/
theorem hcond0_0 : ∀ t : Fin cfg0.N, cond0_0 (grid0.coords t) ↔ t.val % 16 = 0 :=
  (by decide +kernel : ∀ t : Fin grid0.N, cond0_0 (grid0.coords t) ↔ t.val % 16 = 0)

/-! ## The staging memrefs -/

/-- One staging buffer of each output window, through which its contents are stated. -/
abbrev VO0_2 : View sig .tc .vmem S1x64x64 .f32 := (Memref.whole cc0_stg2_0 : Memref sig .tc .vmem S1x64x64 .f32).view
abbrev VO0_3 : View sig .tc .vmem S1x64x1 .f32 := (Memref.whole cc0_stg3_0 : Memref sig .tc .vmem S1x64x1 .f32).view
abbrev VO0_4 : View sig .tc .vmem S1x64x1 .f32 := (Memref.whole cc0_stg4_0 : Memref sig .tc .vmem S1x64x1 .f32).view
/-- Each window's current staging memref at point `t`, as the pipeline passes it, and its wholeness. -/
abbrev ms0_0 (t : Fin cfg0.N) : Memref sig .tc .vmem S32x1024 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32x1024 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x64x1 .f32 := win0_4.stage (cfg0.slots t 4)
abbrev hs0_4 (t : Fin cfg0.N) : (ms0_4 t).IsWhole := hstage0_4 ((cfg0.slots t 4).cast nbuf0_4)

end Cert.Kernel.Fr

end
-- ==== Proof.Kernel.RunA.lean ====
/-
  The frame of `Kernel`: the body's run at the first tile of a half (points 0 and 16).

  There the branch "tile index = 0" is taken: each of the three accumulator blocks is overwritten with zeros, read
  back, and overwritten again with "what was read plus this tile's contribution". Whatever the three staging buffers
  held on entry is never used. The run is found by symbolic execution of the body's memory operations; its witness
  is, per output buffer, the list of pieces the stores leave (last first).
-/
import proofs.«107126_j81801947120084_1_alg».proof.Proof.Kernel.FrameBase

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- On whole staging memrefs — the two input tiles at their contents, the three outputs' at anything — the body runs
    to the continuation, the inputs as they were and each output's buffer with its pieces written. -/
noncomputable def kernelRun0_A (c : Dev nD) (i : grid0.Coords) (arg2 : Memref sig .tc .vmem S32x1024 .i32) (harg2 : arg2.IsWhole) (arg3 : Memref sig .tc .vmem S32x1024 .i32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x64x1 .f32) (harg6 : arg6.IsWhole) (hc0 : cond0_0 i)
    (x0 : Vec F S32x1024 .i32) (x1 : Vec F S32x1024 .i32) :
    Σ' (L2 : List (View.Piece (Elt F) S1x64x64 .f32)), Σ' (L3 : List (View.Piece (Elt F) S1x64x1 .f32)), { L4 : List (View.Piece (Elt F) S1x64x1 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1
               ∗ (∃ f, arg4.view.loc (c : Thread nD τ) ↦[arg4.view.set]{fullShare} arg4.view.writes (Elt F) f L2)
               ∗ (∃ f, arg5.view.loc (c : Thread nD τ) ↦[arg5.view.set]{fullShare} arg5.view.writes (Elt F) f L3)
               ∗ (∃ f, arg6.view.loc (c : Thread nD τ) ↦[arg6.view.set]{fullShare} arg6.view.writes (Elt F) f L4)) -∗ K ⟨⟩))
          ⊢ wp frame (wpE (defs₀ (F := F)) Variants.none c none) E (cc0__hist_kernel i arg2 harg2 arg3 harg3 arg4 harg4 arg5 harg5 arg6 harg6) K } := by
  refine ⟨?_, ?_, ?_, fun E K => ?run⟩
  case run =>
    simp only [cc0__hist_kernel_eq_skeleton]; unfold cc0__hist_kernel_skel
    unfold owns
    iintro ⟨⟨%f0, %hf0, H0⟩, ⟨%f1, %hf1, H1⟩, ⟨%d2, %f2, -, H2⟩, ⟨%d3, %f3, -, H3⟩, ⟨%d4, %f4, -, H4⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    isplitl [H3]
    · iexists _; iexact H3
    iexists _; iexact H4

end Cert.Kernel.Fr

end
-- ==== Proof.Kernel.RunB.lean ====
/-
  The frame of `Kernel`: the body's run at a later tile of a half (every point but 0 and 16).

  There the branch "tile index = 0" is not taken: each of the three accumulator blocks is read as the tile before left
  it and overwritten with "what was read plus this tile's contribution". The run is found by symbolic execution of
  the body's memory operations; its witness is, per output buffer, the list of pieces the stores leave.
-/
import proofs.«107126_j81801947120084_1_alg».proof.Proof.Kernel.RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- On whole staging memrefs — the two input tiles at their contents, the three outputs' at their running contents
    `xo·` — the body runs to the continuation, the inputs as they were and each output's buffer with its pieces written. -/
noncomputable def kernelRun0_B (c : Dev nD) (i : grid0.Coords) (arg2 : Memref sig .tc .vmem S32x1024 .i32) (harg2 : arg2.IsWhole) (arg3 : Memref sig .tc .vmem S32x1024 .i32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x64x1 .f32) (harg6 : arg6.IsWhole) (hc0 : ¬cond0_0 i)
    (x0 : Vec F S32x1024 .i32) (x1 : Vec F S32x1024 .i32) (xo2 : Vec F S1x64x64 .f32) (xo3 : Vec F S1x64x1 .f32) (xo4 : Vec F S1x64x1 .f32) :
    Σ' (L2 : List (View.Piece (Elt F) S1x64x64 .f32)), Σ' (L3 : List (View.Piece (Elt F) S1x64x1 .f32)), { L4 : List (View.Piece (Elt F) S1x64x1 .f32) //
      ∀ (E : Set ℕ) (K : PUnit → sProp 𝕄),
        iprop(owns (c : Thread nD τ) arg2 fullShare x0 ∗ owns (c : Thread nD τ) arg3 fullShare x1
            ∗ owns (c : Thread nD τ) arg4 fullShare xo2 ∗ owns (c : Thread nD τ) arg5 fullShare xo3 ∗ owns (c : Thread nD τ) arg6 fullShare xo4
            ∗ (iprop(owns (c : Thread nD τ) arg2 fullShare x0 ∗ owns (c : Thread nD τ) arg3 fullShare x1
               ∗ (∃ f, arg4.view.loc (c : Thread nD τ) ↦[arg4.view.set]{fullShare} arg4.view.writes (Elt F) f L2)
               ∗ (∃ f, arg5.view.loc (c : Thread nD τ) ↦[arg5.view.set]{fullShare} arg5.view.writes (Elt F) f L3)
               ∗ (∃ f, arg6.view.loc (c : Thread nD τ) ↦[arg6.view.set]{fullShare} arg6.view.writes (Elt F) f L4)) -∗ K ⟨⟩))
          ⊢ wp frame (wpE (defs₀ (F := F)) Variants.none c none) E (cc0__hist_kernel i arg2 harg2 arg3 harg3 arg4 harg4 arg5 harg5 arg6 harg6) K } := by
  refine ⟨?_, ?_, ?_, fun E K => ?run⟩
  case run =>
    simp only [cc0__hist_kernel_eq_skeleton]; unfold cc0__hist_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1
    obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    isplitl [H3]
    · iexists _; iexact H3
    iexists _; iexact H4

end Cert.Kernel.Fr

end
-- ==== Proof.Kernel.Frame.lean ====
/-
  The frame of `Kernel`: what the three accumulator blocks hold point by point, the region's proof data, the body's
  obligation at every point, the run of @main and the frame claim.

  At point t = 16 c + r (tile r of half c) the staging buffers of the three outputs hold: at r = 0 what the reset-and-add
  run leaves from the two input tiles; at r > 0 what the add run leaves from the two input tiles and what point t - 1 left
  (the buffers are written back only after r = 15, so between the tiles of a half they are carried over untouched).
  The launch is the library's frame run for a region followed by host operations.
-/
import proofs.«107126_j81801947120084_1_alg».proof.Proof.Kernel.RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the three output buffers -/

/-- Case A's pieces for output window 2 tile its block, so they cover it. -/
theorem cover0_A_2 (c : Dev nD) (i : grid0.Coords) (arg2 : Memref sig .tc .vmem S32x1024 .i32) (harg2 : arg2.IsWhole) (arg3 : Memref sig .tc .vmem S32x1024 .i32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x64x1 .f32) (harg6 : arg6.IsWhole) (hc0 : cond0_0 i) (x0 : Vec F S32x1024 .i32) (x1 : Vec F S32x1024 .i32) (y : S1x64x64.Idx) :
    ∃ pc ∈ (kernelRun0_A c i arg2 harg2 arg3 harg3 arg4 harg4 arg5 harg5 arg6 harg6 hc0 x0 x1).1, y ∈ pc.1.set :=
  View.cover_of_tiledL (kernelRun0_A c i arg2 harg2 arg3 harg3 arg4 harg4 arg5 harg5 arg6 harg6 hc0 x0 x1).1 S1x64x64.size (by sl_kernel_rfl) y

/-- What case A leaves in output window 2's staging buffer: its pieces read back. -/
def out0_A_2 (c : Dev nD) (i : grid0.Coords) (arg2 : Memref sig .tc .vmem S32x1024 .i32) (harg2 : arg2.IsWhole) (arg3 : Memref sig .tc .vmem S32x1024 .i32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x64x1 .f32) (harg6 : arg6.IsWhole) (hc0 : cond0_0 i) (x0 : Vec F S32x1024 .i32) (x1 : Vec F S32x1024 .i32) : Vec F S1x64x64 .f32 :=
  VO0_2.read (Elt F) (VO0_2.writes (Elt F) VO0_2.junk (kernelRun0_A c i arg2 harg2 arg3 harg3 arg4 harg4 arg5 harg5 arg6 harg6 hc0 x0 x1).1)

/-- Case B's pieces for output window 2 tile its block, so they cover it. -/
theorem cover0_B_2 (c : Dev nD) (i : grid0.Coords) (arg2 : Memref sig .tc .vmem S32x1024 .i32) (harg2 : arg2.IsWhole) (arg3 : Memref sig .tc .vmem S32x1024 .i32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x64x1 .f32) (harg6 : arg6.IsWhole) (hc0 : ¬cond0_0 i) (x0 : Vec F S32x1024 .i32) (x1 : Vec F S32x1024 .i32)
    (xo2 : Vec F S1x64x64 .f32) (xo3 : Vec F S1x64x1 .f32) (xo4 : Vec F S1x64x1 .f32) (y : S1x64x64.Idx) :
    ∃ pc ∈ (kernelRun0_B c i arg2 harg2 arg3 harg3 arg4 harg4 arg5 harg5 arg6 harg6 hc0 x0 x1 xo2 xo3 xo4).1, y ∈ pc.1.set :=
  View.cover_of_tiledL (kernelRun0_B c i arg2 harg2 arg3 harg3 arg4 harg4 arg5 harg5 arg6 harg6 hc0 x0 x1 xo2 xo3 xo4).1 S1x64x64.size (by sl_kernel_rfl) y

/-- What case B leaves in output window 2's staging buffer: its pieces read back. -/
def out0_B_2 (c : Dev nD) (i : grid0.Coords) (arg2 : Memref sig .tc .vmem S32x1024 .i32) (harg2 : arg2.IsWhole) (arg3 : Memref sig .tc .vmem S32x1024 .i32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x64x1 .f32) (harg6 : arg6.IsWhole) (hc0 : ¬cond0_0 i) (x0 : Vec F S32x1024 .i32) (x1 : Vec F S32x1024 .i32)
    (xo2 : Vec F S1x64x64 .f32) (xo3 : Vec F S1x64x1 .f32) (xo4 : Vec F S1x64x1 .f32) : Vec F S1x64x64 .f32 :=
  VO0_2.read (Elt F) (VO0_2.writes (Elt F) VO0_2.junk (kernelRun0_B c i arg2 harg2 arg3 harg3 arg4 harg4 arg5 harg5 arg6 harg6 hc0 x0 x1 xo2 xo3 xo4).1)

/-- Case A's pieces for output window 3 tile its block, so they cover it. -/
theorem cover0_A_3 (c : Dev nD) (i : grid0.Coords) (arg2 : Memref sig .tc .vmem S32x1024 .i32) (harg2 : arg2.IsWhole) (arg3 : Memref sig .tc .vmem S32x1024 .i32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x64x1 .f32) (harg6 : arg6.IsWhole) (hc0 : cond0_0 i) (x0 : Vec F S32x1024 .i32) (x1 : Vec F S32x1024 .i32) (y : S1x64x1.Idx) :
    ∃ pc ∈ (kernelRun0_A c i arg2 harg2 arg3 harg3 arg4 harg4 arg5 harg5 arg6 harg6 hc0 x0 x1).2.1, y ∈ pc.1.set :=
  View.cover_of_tiledL (kernelRun0_A c i arg2 harg2 arg3 harg3 arg4 harg4 arg5 harg5 arg6 harg6 hc0 x0 x1).2.1 S1x64x1.size (by sl_kernel_rfl) y

/-- What case A leaves in output window 3's staging buffer: its pieces read back. -/
def out0_A_3 (c : Dev nD) (i : grid0.Coords) (arg2 : Memref sig .tc .vmem S32x1024 .i32) (harg2 : arg2.IsWhole) (arg3 : Memref sig .tc .vmem S32x1024 .i32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x64x1 .f32) (harg6 : arg6.IsWhole) (hc0 : cond0_0 i) (x0 : Vec F S32x1024 .i32) (x1 : Vec F S32x1024 .i32) : Vec F S1x64x1 .f32 :=
  VO0_3.read (Elt F) (VO0_3.writes (Elt F) VO0_3.junk (kernelRun0_A c i arg2 harg2 arg3 harg3 arg4 harg4 arg5 harg5 arg6 harg6 hc0 x0 x1).2.1)

/-- Case B's pieces for output window 3 tile its block, so they cover it. -/
theorem cover0_B_3 (c : Dev nD) (i : grid0.Coords) (arg2 : Memref sig .tc .vmem S32x1024 .i32) (harg2 : arg2.IsWhole) (arg3 : Memref sig .tc .vmem S32x1024 .i32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x64x1 .f32) (harg6 : arg6.IsWhole) (hc0 : ¬cond0_0 i) (x0 : Vec F S32x1024 .i32) (x1 : Vec F S32x1024 .i32)
    (xo2 : Vec F S1x64x64 .f32) (xo3 : Vec F S1x64x1 .f32) (xo4 : Vec F S1x64x1 .f32) (y : S1x64x1.Idx) :
    ∃ pc ∈ (kernelRun0_B c i arg2 harg2 arg3 harg3 arg4 harg4 arg5 harg5 arg6 harg6 hc0 x0 x1 xo2 xo3 xo4).2.1, y ∈ pc.1.set :=
  View.cover_of_tiledL (kernelRun0_B c i arg2 harg2 arg3 harg3 arg4 harg4 arg5 harg5 arg6 harg6 hc0 x0 x1 xo2 xo3 xo4).2.1 S1x64x1.size (by sl_kernel_rfl) y

/-- What case B leaves in output window 3's staging buffer: its pieces read back. -/
def out0_B_3 (c : Dev nD) (i : grid0.Coords) (arg2 : Memref sig .tc .vmem S32x1024 .i32) (harg2 : arg2.IsWhole) (arg3 : Memref sig .tc .vmem S32x1024 .i32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x64x1 .f32) (harg6 : arg6.IsWhole) (hc0 : ¬cond0_0 i) (x0 : Vec F S32x1024 .i32) (x1 : Vec F S32x1024 .i32)
    (xo2 : Vec F S1x64x64 .f32) (xo3 : Vec F S1x64x1 .f32) (xo4 : Vec F S1x64x1 .f32) : Vec F S1x64x1 .f32 :=
  VO0_3.read (Elt F) (VO0_3.writes (Elt F) VO0_3.junk (kernelRun0_B c i arg2 harg2 arg3 harg3 arg4 harg4 arg5 harg5 arg6 harg6 hc0 x0 x1 xo2 xo3 xo4).2.1)

/-- Case A's pieces for output window 4 tile its block, so they cover it. -/
theorem cover0_A_4 (c : Dev nD) (i : grid0.Coords) (arg2 : Memref sig .tc .vmem S32x1024 .i32) (harg2 : arg2.IsWhole) (arg3 : Memref sig .tc .vmem S32x1024 .i32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x64x1 .f32) (harg6 : arg6.IsWhole) (hc0 : cond0_0 i) (x0 : Vec F S32x1024 .i32) (x1 : Vec F S32x1024 .i32) (y : S1x64x1.Idx) :
    ∃ pc ∈ (kernelRun0_A c i arg2 harg2 arg3 harg3 arg4 harg4 arg5 harg5 arg6 harg6 hc0 x0 x1).2.2.1, y ∈ pc.1.set :=
  View.cover_of_tiledL (kernelRun0_A c i arg2 harg2 arg3 harg3 arg4 harg4 arg5 harg5 arg6 harg6 hc0 x0 x1).2.2.1 S1x64x1.size (by sl_kernel_rfl) y

/-- What case A leaves in output window 4's staging buffer: its pieces read back. -/
def out0_A_4 (c : Dev nD) (i : grid0.Coords) (arg2 : Memref sig .tc .vmem S32x1024 .i32) (harg2 : arg2.IsWhole) (arg3 : Memref sig .tc .vmem S32x1024 .i32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x64x1 .f32) (harg6 : arg6.IsWhole) (hc0 : cond0_0 i) (x0 : Vec F S32x1024 .i32) (x1 : Vec F S32x1024 .i32) : Vec F S1x64x1 .f32 :=
  VO0_4.read (Elt F) (VO0_4.writes (Elt F) VO0_4.junk (kernelRun0_A c i arg2 harg2 arg3 harg3 arg4 harg4 arg5 harg5 arg6 harg6 hc0 x0 x1).2.2.1)

/-- Case B's pieces for output window 4 tile its block, so they cover it. -/
theorem cover0_B_4 (c : Dev nD) (i : grid0.Coords) (arg2 : Memref sig .tc .vmem S32x1024 .i32) (harg2 : arg2.IsWhole) (arg3 : Memref sig .tc .vmem S32x1024 .i32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x64x1 .f32) (harg6 : arg6.IsWhole) (hc0 : ¬cond0_0 i) (x0 : Vec F S32x1024 .i32) (x1 : Vec F S32x1024 .i32)
    (xo2 : Vec F S1x64x64 .f32) (xo3 : Vec F S1x64x1 .f32) (xo4 : Vec F S1x64x1 .f32) (y : S1x64x1.Idx) :
    ∃ pc ∈ (kernelRun0_B c i arg2 harg2 arg3 harg3 arg4 harg4 arg5 harg5 arg6 harg6 hc0 x0 x1 xo2 xo3 xo4).2.2.1, y ∈ pc.1.set :=
  View.cover_of_tiledL (kernelRun0_B c i arg2 harg2 arg3 harg3 arg4 harg4 arg5 harg5 arg6 harg6 hc0 x0 x1 xo2 xo3 xo4).2.2.1 S1x64x1.size (by sl_kernel_rfl) y

/-- What case B leaves in output window 4's staging buffer: its pieces read back. -/
def out0_B_4 (c : Dev nD) (i : grid0.Coords) (arg2 : Memref sig .tc .vmem S32x1024 .i32) (harg2 : arg2.IsWhole) (arg3 : Memref sig .tc .vmem S32x1024 .i32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x64x1 .f32) (harg6 : arg6.IsWhole) (hc0 : ¬cond0_0 i) (x0 : Vec F S32x1024 .i32) (x1 : Vec F S32x1024 .i32)
    (xo2 : Vec F S1x64x64 .f32) (xo3 : Vec F S1x64x1 .f32) (xo4 : Vec F S1x64x1 .f32) : Vec F S1x64x1 .f32 :=
  VO0_4.read (Elt F) (VO0_4.writes (Elt F) VO0_4.junk (kernelRun0_B c i arg2 harg2 arg3 harg3 arg4 harg4 arg5 harg5 arg6 harg6 hc0 x0 x1 xo2 xo3 xo4).2.2.1)

/-! ## What the outputs hold after each point -/

/-- The three accumulator blocks after the body at position `n`: at the first tile of a half the reset-and-add case
    on the point's two input tiles; otherwise the add case on them and on what position `n - 1` left. -/
def outsAt0 (c : Dev nD) : (n : ℕ) → n < cfg0.N → Vec F S1x64x64 .f32 × Vec F S1x64x1 .f32 × Vec F S1x64x1 .f32
  | 0, hn =>
    (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩),
     out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩),
     out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩))
  | n + 1, hn =>
    if h0 : (n + 1) % 16 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩),
       out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩),
       out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩)
          (outsAt0 c n (Nat.lt_of_succ_lt hn)).1 (outsAt0 c n (Nat.lt_of_succ_lt hn)).2.1 (outsAt0 c n (Nat.lt_of_succ_lt hn)).2.2,
       out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩)
          (outsAt0 c n (Nat.lt_of_succ_lt hn)).1 (outsAt0 c n (Nat.lt_of_succ_lt hn)).2.1 (outsAt0 c n (Nat.lt_of_succ_lt hn)).2.2,
       out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩)
          (outsAt0 c n (Nat.lt_of_succ_lt hn)).1 (outsAt0 c n (Nat.lt_of_succ_lt hn)).2.1 (outsAt0 c n (Nat.lt_of_succ_lt hn)).2.2)

/-- `outsAt0` at the first tile of a half. -/
theorem outsAt0_A (c : Dev nD) (t : Fin cfg0.N) (h0 : t.val % 16 = 0) :
    outsAt0 m c t.val t.isLt =
      (out0_A_2 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t),
       out0_A_3 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t),
       out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t)) := by
  obtain ⟨n, hn⟩ := t
  cases n with
  | zero => exact rfl
  | succ n => exact (dif_pos h0).trans rfl

/-- `outsAt0` at a later tile of a half: over what the point before left. -/
theorem outsAt0_B (c : Dev nD) (t : Fin cfg0.N) (h0 : ¬t.val % 16 = 0) :
    outsAt0 m c t.val t.isLt =
      (out0_B_2 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t)
          (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2,
       out0_B_3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t)
          (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2,
       out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t)
          (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The region's proof data -/

/-- The arrays as the region finds them; after the body at point `t` each input's buffer at its tile and the three
    outputs' at `outsAt0`; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
    | ⟨4, _⟩ => (outsAt0 m c t.val t.isLt).2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]
theorem after0_4 (c : Dev nD) (t : Fin cfg0.N) : (dats m 0 c).after 4 t = (outsAt0 m c t.val t.isLt).2.2 := by dsimp only [dats]

/-- Each input's current staging buffer holds its tile at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- At a later tile of a half output window 2's current staging buffer holds what the body left at the point before:
    the buffer is written back only after tile 15, so not between. -/
theorem before0_2_B (c : Dev nD) (t : Fin cfg0.N) (h0 : ¬t.val % 16 = 0) (d) :
    (dats m 0 c).before 2 t d = (outsAt0 m c (t.val - 1) (Nat.lt_of_le_of_lt (Nat.sub_le _ _) t.isLt)).1 := by
  have hN : t.val < 32 := lt_of_lt_of_eq t.isLt (show cfg0.N = 32 from N_0)
  rw [Dat.before_out_kept _ 2 rfl t (by omega) (Bool.eq_false_iff.mpr fun h => by have := (flush0_2 _).mp h; dsimp only at this; omega)
    (fun _ => rfl) (fun _ _ => rfl)]
  dsimp only [dats]
/-- At a later tile of a half output window 3's current staging buffer holds what the body left at the point before:
    the buffer is written back only after tile 15, so not between. -/
theorem before0_3_B (c : Dev nD) (t : Fin cfg0.N) (h0 : ¬t.val % 16 = 0) (d) :
    (dats m 0 c).before 3 t d = (outsAt0 m c (t.val - 1) (Nat.lt_of_le_of_lt (Nat.sub_le _ _) t.isLt)).2.1 := by
  have hN : t.val < 32 := lt_of_lt_of_eq t.isLt (show cfg0.N = 32 from N_0)
  rw [Dat.before_out_kept _ 3 rfl t (by omega) (Bool.eq_false_iff.mpr fun h => by have := (flush0_3 _).mp h; dsimp only at this; omega)
    (fun _ => rfl) (fun _ _ => rfl)]
  dsimp only [dats]
/-- At a later tile of a half output window 4's current staging buffer holds what the body left at the point before:
    the buffer is written back only after tile 15, so not between. -/
theorem before0_4_B (c : Dev nD) (t : Fin cfg0.N) (h0 : ¬t.val % 16 = 0) (d) :
    (dats m 0 c).before 4 t d = (outsAt0 m c (t.val - 1) (Nat.lt_of_le_of_lt (Nat.sub_le _ _) t.isLt)).2.2 := by
  have hN : t.val < 32 := lt_of_lt_of_eq t.isLt (show cfg0.N = 32 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 1600000 in
/-- The body at any point: the inputs' memrefs hold their tiles; the closed form of the branch condition says which case
    the point is in; at a later tile the outputs' buffers hold what the point before left; so that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, after0_4]
  have hN : t.val < 32 := lt_of_lt_of_eq t.isLt (show cfg0.N = 32 from N_0)
  by_cases h0 : t.val % 16 = 0
  · rw [outsAt0_A m c t h0]
    dsimp only
    unfold out0_A_2 out0_A_3 out0_A_4
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (iblk m c 0 t) (iblk m c 1 t)).2.2.2 Set.univ _)
    isplitl [H0]; · iexact H0
    isplitl [H1]; · iexact H1
    isplitl [H2]; · iexists _; iexact H2
    isplitl [H3]; · iexists _; iexact H3
    isplitl [H4]; · iexists _; iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _ _ _)
    isplitl [H3]
    · unfold owns; iexists _; isplitr
      swap; · iexact H3
      ipureintro; exact View.read_writes_of_cover _ _ _ _ _ (cover0_A_3 c _ _ _ _ _ _ _ _ _ _ _ _ _ _)
    unfold owns; iexists _; isplitr
    swap; · iexact H4
    ipureintro; exact View.read_writes_of_cover _ _ _ _ _ (cover0_A_4 c _ _ _ _ _ _ _ _ _ _ _ _ _ _)
  · rw [outsAt0_B m c t h0]
    dsimp only
    simp only [before0_2_B m c t h0, before0_3_B m c t h0, before0_4_B m c t h0]
    unfold out0_B_2 out0_B_3 out0_B_4
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0_0 t).mp h)) (iblk m c 0 t) (iblk m c 1 t) _ _ _).2.2.2 Set.univ _)
    isplitl [H0]; · iexact H0
    isplitl [H1]; · iexact H1
    isplitl [H2]; · iexact H2
    isplitl [H3]; · iexact H3
    isplitl [H4]; · iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _ _ _ _)
    isplitl [H3]
    · unfold owns; iexists _; isplitr
      swap; · iexact H3
      ipureintro; exact View.read_writes_of_cover _ _ _ _ _ (cover0_B_3 c _ _ _ _ _ _ _ _ _ _ _ _ _ _ _ _ _)
    unfold owns; iexists _; isplitr
    swap; · iexact H4
    ipureintro; exact View.read_writes_of_cover _ _ _ _ _ (cover0_B_4 c _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, every array of the region ends at what the library computes from
    the proof data, and every other unscoped buffer as the host operations after the region leave it. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh) (hkeep := tail_keeps)
    (hmain := hmain m Variants.none) (hA := A_eq m) (hΦ := fun _ _ => rfl)

/-- The frame: the two argument arrays are staged inputs of the region, which the run leaves at their entry contents,
    and those are the launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c)))⟩) (run_main m ρ)

end Cert.Kernel.Fr

end
-- ==== Proof.KernelIdeal.FrameBase.lean ====
/-
  The frame of `KernelIdeal`, first part: what the body's runs and the launch share.

  @main is the kernel region followed by 69 host operations (eight stretches). The region's grid is 2 × 16: the first
  axis picks a half of the 1024 pixel rows, the second walks the sixteen 32-row tiles of that half. The three outputs are
  accumulators: block `c` of each is zeroed at tile 0 of half `c` and added to at every tile, and is written back after
  tile 15. Here: the buffers as the region finds them (`V`: the launch contents, nothing runs before the region), @main
  as the region continued by the later operations, that those operations touch only unscoped buffers, allocate nothing
  and never write one of the five arrays the region stages, each window's block at a point, the branch condition
  "tile index = 0" in closed form over the 32 points, and the staging memrefs the body is called with.
-/
import proofs.«107126_j81801947120084_1_alg».proof.Proof.Gen.KernelIdeal.Launch
import proofs.«107126_j81801947120084_1_alg».proof.Proof.Gen.KernelIdeal.Skeleton
import proofs.«107126_j81801947120084_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered, as a valuation: the launch contents (no host operation
    precedes the region). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- The host operations after the region, stretch by stretch: the two sums over the halves and what follows them. -/
abbrev tailOps : List (List (HloOp τ sig (Elt F))) :=
  [hostOps1, hostOps1_1, hostOps1_2, hostOps1_3, hostOps1_4, hostOps1_5, hostOps1_6, hostOps1_7]

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor

/-- @main is the region continued by the later operations (off the generated chain of its items). -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps (by simp only [List.Forall])
    (by simp only [List.Forall]) main_chain

/-- The later operations touch unscoped TensorCore buffers only: the arrays and the buffers that bypass the region. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)

/-- They allocate nothing. -/
theorem tail_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop

/-- No operation of this stretch writes one of the region's five arrays: each writes its own result buffer. -/
theorem hostOps1_keeps : ∀ op ∈ (hostOps1 : List (HloOp τ sig (Elt F))), ∀ w, Proc.devRef .tc (Pipeline.arrRef spec0 w) ∉ op.writes := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)
/-- No operation of this stretch writes one of the region's five arrays: each writes its own result buffer. -/
theorem hostOps1_1_keeps : ∀ op ∈ (hostOps1_1 : List (HloOp τ sig (Elt F))), ∀ w, Proc.devRef .tc (Pipeline.arrRef spec0 w) ∉ op.writes := by
  intro op hop
  simp only [hostOps1_1, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)
/-- No operation of this stretch writes one of the region's five arrays: each writes its own result buffer. -/
theorem hostOps1_2_keeps : ∀ op ∈ (hostOps1_2 : List (HloOp τ sig (Elt F))), ∀ w, Proc.devRef .tc (Pipeline.arrRef spec0 w) ∉ op.writes := by
  intro op hop
  simp only [hostOps1_2, List.mem_cons, List.mem_nil_iff, or_false] at hop
  rcases hop with rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)
/-- No operation of this stretch writes one of the region's five arrays: each writes its own result buffer. -/
theorem hostOps1_3_keeps : ∀ op ∈ (hostOps1_3 : List (HloOp τ sig (Elt F))), ∀ w, Proc.devRef .tc (Pipeline.arrRef spec0 w) ∉ op.writes := by
  intro op hop
  simp only [hostOps1_3, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)
/-- No operation of this stretch writes one of the region's five arrays: each writes its own result buffer. -/
theorem hostOps1_4_keeps : ∀ op ∈ (hostOps1_4 : List (HloOp τ sig (Elt F))), ∀ w, Proc.devRef .tc (Pipeline.arrRef spec0 w) ∉ op.writes := by
  intro op hop
  simp only [hostOps1_4, List.mem_cons, List.mem_nil_iff, or_false] at hop
  rcases hop with rfl | rfl | rfl | rfl | rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)
/-- No operation of this stretch writes one of the region's five arrays: each writes its own result buffer. -/
theorem hostOps1_5_keeps : ∀ op ∈ (hostOps1_5 : List (HloOp τ sig (Elt F))), ∀ w, Proc.devRef .tc (Pipeline.arrRef spec0 w) ∉ op.writes := by
  intro op hop
  simp only [hostOps1_5, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)
/-- No operation of this stretch writes one of the region's five arrays: each writes its own result buffer. -/
theorem hostOps1_6_keeps : ∀ op ∈ (hostOps1_6 : List (HloOp τ sig (Elt F))), ∀ w, Proc.devRef .tc (Pipeline.arrRef spec0 w) ∉ op.writes := by
  intro op hop
  simp only [hostOps1_6, List.mem_cons, List.mem_nil_iff, or_false] at hop
  rcases hop with rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)
/-- No operation of this stretch writes one of the region's five arrays: each writes its own result buffer. -/
theorem hostOps1_7_keeps : ∀ op ∈ (hostOps1_7 : List (HloOp τ sig (Elt F))), ∀ w, Proc.devRef .tc (Pipeline.arrRef spec0 w) ∉ op.writes := by
  intro op hop
  simp only [hostOps1_7, List.mem_cons, List.mem_nil_iff, or_false] at hop
  rcases hop with rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)

/-- And so none of the later operations writes an array of the region. -/
theorem tail_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl | rfl | rfl | rfl | rfl | rfl | rfl
  · exact hostOps1_keeps op hop
  · exact hostOps1_1_keeps op hop
  · exact hostOps1_2_keeps op hop
  · exact hostOps1_3_keeps op hop
  · exact hostOps1_4_keeps op hop
  · exact hostOps1_5_keeps op hop
  · exact hostOps1_6_keeps op hop
  · exact hostOps1_7_keeps op hop

theorem V_main_arg0 (c : Dev nD) : V m c main_arg0 = m ((c : Thread nD τ).loc main_arg0) := rfl
theorem V_main_arg1 (c : Dev nD) : V m c main_arg1 = m ((c : Thread nD τ).loc main_arg1) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its 32-row tile at every point, for any proof data whose array is
    the region-entry contents and whose body leaves the tile in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch condition -/

/-- The body's one `scf.if`: "the tile index (grid coordinate 1) is zero". -/
abbrev cond0_0 (i : grid0.Coords) : Prop := (Scalar.cmpi .ne (Scalar.extui (Scalar.cmpi .eq (BitVec.ofNat 32 (i 1).val) 0#32)) 0#32) = 1#1
/-- It holds at the first tile of each half: points 0 and 16. -/
theorem hcond0_0 : ∀ t : Fin cfg0.N, cond0_0 (grid0.coords t) ↔ t.val % 16 = 0 :=
  (by decide +kernel : ∀ t : Fin grid0.N, cond0_0 (grid0.coords t) ↔ t.val % 16 = 0)

/-! ## The staging memrefs -/

/-- One staging buffer of each output window, through which its contents are stated. -/
abbrev VO0_2 : View sig .tc .vmem S1x64x64 .f32 := (Memref.whole cc0_stg2_0 : Memref sig .tc .vmem S1x64x64 .f32).view
abbrev VO0_3 : View sig .tc .vmem S1x64x1 .f32 := (Memref.whole cc0_stg3_0 : Memref sig .tc .vmem S1x64x1 .f32).view
abbrev VO0_4 : View sig .tc .vmem S1x64x1 .f32 := (Memref.whole cc0_stg4_0 : Memref sig .tc .vmem S1x64x1 .f32).view
/-- Each window's current staging memref at point `t`, as the pipeline passes it, and its wholeness. -/
abbrev ms0_0 (t : Fin cfg0.N) : Memref sig .tc .vmem S32x1024 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32x1024 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x64x1 .f32 := win0_4.stage (cfg0.slots t 4)
abbrev hs0_4 (t : Fin cfg0.N) : (ms0_4 t).IsWhole := hstage0_4 ((cfg0.slots t 4).cast nbuf0_4)

end Cert.KernelIdeal.Fr

end
-- ==== Proof.KernelIdeal.RunA.lean ====
/-
  The frame of `KernelIdeal`: the body's run at the first tile of a half (points 0 and 16).

  There the branch "tile index = 0" is taken: each of the three accumulator blocks is overwritten with zeros, read
  back, and overwritten again with "what was read plus this tile's contribution". Whatever the three staging buffers
  held on entry is never used. The run is found by symbolic execution of the body's memory operations; its witness
  is, per output buffer, the list of pieces the stores leave (last first).
-/
import proofs.«107126_j81801947120084_1_alg».proof.Proof.KernelIdeal.FrameBase

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- On whole staging memrefs — the two input tiles at their contents, the three outputs' at anything — the body runs
    to the continuation, the inputs as they were and each output's buffer with its pieces written. -/
noncomputable def kernelRun0_A (c : Dev nD) (i : grid0.Coords) (arg2 : Memref sig .tc .vmem S32x1024 .i32) (harg2 : arg2.IsWhole) (arg3 : Memref sig .tc .vmem S32x1024 .i32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x64x1 .f32) (harg6 : arg6.IsWhole) (hc0 : cond0_0 i)
    (x0 : Vec F S32x1024 .i32) (x1 : Vec F S32x1024 .i32) :
    Σ' (L2 : List (View.Piece (Elt F) S1x64x64 .f32)), Σ' (L3 : List (View.Piece (Elt F) S1x64x1 .f32)), { L4 : List (View.Piece (Elt F) S1x64x1 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1
               ∗ (∃ f, arg4.view.loc (c : Thread nD τ) ↦[arg4.view.set]{fullShare} arg4.view.writes (Elt F) f L2)
               ∗ (∃ f, arg5.view.loc (c : Thread nD τ) ↦[arg5.view.set]{fullShare} arg5.view.writes (Elt F) f L3)
               ∗ (∃ f, arg6.view.loc (c : Thread nD τ) ↦[arg6.view.set]{fullShare} arg6.view.writes (Elt F) f L4)) -∗ K ⟨⟩))
          ⊢ wp frame (wpE (defs₀ (F := F)) Variants.none c none) E (cc0__hist_kernel i arg2 harg2 arg3 harg3 arg4 harg4 arg5 harg5 arg6 harg6) K } := by
  refine ⟨?_, ?_, ?_, fun E K => ?run⟩
  case run =>
    simp only [cc0__hist_kernel_eq_skeleton]; unfold cc0__hist_kernel_skel
    unfold owns
    iintro ⟨⟨%f0, %hf0, H0⟩, ⟨%f1, %hf1, H1⟩, ⟨%d2, %f2, -, H2⟩, ⟨%d3, %f3, -, H3⟩, ⟨%d4, %f4, -, H4⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    isplitl [H3]
    · iexists _; iexact H3
    iexists _; iexact H4

end Cert.KernelIdeal.Fr

end
-- ==== Proof.KernelIdeal.RunB.lean ====
/-
  The frame of `KernelIdeal`: the body's run at a later tile of a half (every point but 0 and 16).

  There the branch "tile index = 0" is not taken: each of the three accumulator blocks is read as the tile before left
  it and overwritten with "what was read plus this tile's contribution". The run is found by symbolic execution of
  the body's memory operations; its witness is, per output buffer, the list of pieces the stores leave.
-/
import proofs.«107126_j81801947120084_1_alg».proof.Proof.KernelIdeal.RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- On whole staging memrefs — the two input tiles at their contents, the three outputs' at their running contents
    `xo·` — the body runs to the continuation, the inputs as they were and each output's buffer with its pieces written. -/
noncomputable def kernelRun0_B (c : Dev nD) (i : grid0.Coords) (arg2 : Memref sig .tc .vmem S32x1024 .i32) (harg2 : arg2.IsWhole) (arg3 : Memref sig .tc .vmem S32x1024 .i32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x64x1 .f32) (harg6 : arg6.IsWhole) (hc0 : ¬cond0_0 i)
    (x0 : Vec F S32x1024 .i32) (x1 : Vec F S32x1024 .i32) (xo2 : Vec F S1x64x64 .f32) (xo3 : Vec F S1x64x1 .f32) (xo4 : Vec F S1x64x1 .f32) :
    Σ' (L2 : List (View.Piece (Elt F) S1x64x64 .f32)), Σ' (L3 : List (View.Piece (Elt F) S1x64x1 .f32)), { L4 : List (View.Piece (Elt F) S1x64x1 .f32) //
      ∀ (E : Set ℕ) (K : PUnit → sProp 𝕄),
        iprop(owns (c : Thread nD τ) arg2 fullShare x0 ∗ owns (c : Thread nD τ) arg3 fullShare x1
            ∗ owns (c : Thread nD τ) arg4 fullShare xo2 ∗ owns (c : Thread nD τ) arg5 fullShare xo3 ∗ owns (c : Thread nD τ) arg6 fullShare xo4
            ∗ (iprop(owns (c : Thread nD τ) arg2 fullShare x0 ∗ owns (c : Thread nD τ) arg3 fullShare x1
               ∗ (∃ f, arg4.view.loc (c : Thread nD τ) ↦[arg4.view.set]{fullShare} arg4.view.writes (Elt F) f L2)
               ∗ (∃ f, arg5.view.loc (c : Thread nD τ) ↦[arg5.view.set]{fullShare} arg5.view.writes (Elt F) f L3)
               ∗ (∃ f, arg6.view.loc (c : Thread nD τ) ↦[arg6.view.set]{fullShare} arg6.view.writes (Elt F) f L4)) -∗ K ⟨⟩))
          ⊢ wp frame (wpE (defs₀ (F := F)) Variants.none c none) E (cc0__hist_kernel i arg2 harg2 arg3 harg3 arg4 harg4 arg5 harg5 arg6 harg6) K } := by
  refine ⟨?_, ?_, ?_, fun E K => ?run⟩
  case run =>
    simp only [cc0__hist_kernel_eq_skeleton]; unfold cc0__hist_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1
    obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    isplitl [H3]
    · iexists _; iexact H3
    iexists _; iexact H4

end Cert.KernelIdeal.Fr

end
-- ==== Proof.KernelIdeal.Frame.lean ====
/-
  The frame of `KernelIdeal`: what the three accumulator blocks hold point by point, the region's proof data, the body's
  obligation at every point, the run of @main and the frame claim.

  At point t = 16 c + r (tile r of half c) the staging buffers of the three outputs hold: at r = 0 what the reset-and-add
  run leaves from the two input tiles; at r > 0 what the add run leaves from the two input tiles and what point t - 1 left
  (the buffers are written back only after r = 15, so between the tiles of a half they are carried over untouched).
  The launch is the library's frame run for a region followed by host operations.
-/
import proofs.«107126_j81801947120084_1_alg».proof.Proof.KernelIdeal.RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the three output buffers -/

/-- Case A's pieces for output window 2 tile its block, so they cover it. -/
theorem cover0_A_2 (c : Dev nD) (i : grid0.Coords) (arg2 : Memref sig .tc .vmem S32x1024 .i32) (harg2 : arg2.IsWhole) (arg3 : Memref sig .tc .vmem S32x1024 .i32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x64x1 .f32) (harg6 : arg6.IsWhole) (hc0 : cond0_0 i) (x0 : Vec F S32x1024 .i32) (x1 : Vec F S32x1024 .i32) (y : S1x64x64.Idx) :
    ∃ pc ∈ (kernelRun0_A c i arg2 harg2 arg3 harg3 arg4 harg4 arg5 harg5 arg6 harg6 hc0 x0 x1).1, y ∈ pc.1.set :=
  View.cover_of_tiledL (kernelRun0_A c i arg2 harg2 arg3 harg3 arg4 harg4 arg5 harg5 arg6 harg6 hc0 x0 x1).1 S1x64x64.size (by sl_kernel_rfl) y

/-- What case A leaves in output window 2's staging buffer: its pieces read back. -/
def out0_A_2 (c : Dev nD) (i : grid0.Coords) (arg2 : Memref sig .tc .vmem S32x1024 .i32) (harg2 : arg2.IsWhole) (arg3 : Memref sig .tc .vmem S32x1024 .i32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x64x1 .f32) (harg6 : arg6.IsWhole) (hc0 : cond0_0 i) (x0 : Vec F S32x1024 .i32) (x1 : Vec F S32x1024 .i32) : Vec F S1x64x64 .f32 :=
  VO0_2.read (Elt F) (VO0_2.writes (Elt F) VO0_2.junk (kernelRun0_A c i arg2 harg2 arg3 harg3 arg4 harg4 arg5 harg5 arg6 harg6 hc0 x0 x1).1)

/-- Case B's pieces for output window 2 tile its block, so they cover it. -/
theorem cover0_B_2 (c : Dev nD) (i : grid0.Coords) (arg2 : Memref sig .tc .vmem S32x1024 .i32) (harg2 : arg2.IsWhole) (arg3 : Memref sig .tc .vmem S32x1024 .i32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x64x1 .f32) (harg6 : arg6.IsWhole) (hc0 : ¬cond0_0 i) (x0 : Vec F S32x1024 .i32) (x1 : Vec F S32x1024 .i32)
    (xo2 : Vec F S1x64x64 .f32) (xo3 : Vec F S1x64x1 .f32) (xo4 : Vec F S1x64x1 .f32) (y : S1x64x64.Idx) :
    ∃ pc ∈ (kernelRun0_B c i arg2 harg2 arg3 harg3 arg4 harg4 arg5 harg5 arg6 harg6 hc0 x0 x1 xo2 xo3 xo4).1, y ∈ pc.1.set :=
  View.cover_of_tiledL (kernelRun0_B c i arg2 harg2 arg3 harg3 arg4 harg4 arg5 harg5 arg6 harg6 hc0 x0 x1 xo2 xo3 xo4).1 S1x64x64.size (by sl_kernel_rfl) y

/-- What case B leaves in output window 2's staging buffer: its pieces read back. -/
def out0_B_2 (c : Dev nD) (i : grid0.Coords) (arg2 : Memref sig .tc .vmem S32x1024 .i32) (harg2 : arg2.IsWhole) (arg3 : Memref sig .tc .vmem S32x1024 .i32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x64x1 .f32) (harg6 : arg6.IsWhole) (hc0 : ¬cond0_0 i) (x0 : Vec F S32x1024 .i32) (x1 : Vec F S32x1024 .i32)
    (xo2 : Vec F S1x64x64 .f32) (xo3 : Vec F S1x64x1 .f32) (xo4 : Vec F S1x64x1 .f32) : Vec F S1x64x64 .f32 :=
  VO0_2.read (Elt F) (VO0_2.writes (Elt F) VO0_2.junk (kernelRun0_B c i arg2 harg2 arg3 harg3 arg4 harg4 arg5 harg5 arg6 harg6 hc0 x0 x1 xo2 xo3 xo4).1)

/-- Case A's pieces for output window 3 tile its block, so they cover it. -/
theorem cover0_A_3 (c : Dev nD) (i : grid0.Coords) (arg2 : Memref sig .tc .vmem S32x1024 .i32) (harg2 : arg2.IsWhole) (arg3 : Memref sig .tc .vmem S32x1024 .i32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x64x1 .f32) (harg6 : arg6.IsWhole) (hc0 : cond0_0 i) (x0 : Vec F S32x1024 .i32) (x1 : Vec F S32x1024 .i32) (y : S1x64x1.Idx) :
    ∃ pc ∈ (kernelRun0_A c i arg2 harg2 arg3 harg3 arg4 harg4 arg5 harg5 arg6 harg6 hc0 x0 x1).2.1, y ∈ pc.1.set :=
  View.cover_of_tiledL (kernelRun0_A c i arg2 harg2 arg3 harg3 arg4 harg4 arg5 harg5 arg6 harg6 hc0 x0 x1).2.1 S1x64x1.size (by sl_kernel_rfl) y

/-- What case A leaves in output window 3's staging buffer: its pieces read back. -/
def out0_A_3 (c : Dev nD) (i : grid0.Coords) (arg2 : Memref sig .tc .vmem S32x1024 .i32) (harg2 : arg2.IsWhole) (arg3 : Memref sig .tc .vmem S32x1024 .i32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x64x1 .f32) (harg6 : arg6.IsWhole) (hc0 : cond0_0 i) (x0 : Vec F S32x1024 .i32) (x1 : Vec F S32x1024 .i32) : Vec F S1x64x1 .f32 :=
  VO0_3.read (Elt F) (VO0_3.writes (Elt F) VO0_3.junk (kernelRun0_A c i arg2 harg2 arg3 harg3 arg4 harg4 arg5 harg5 arg6 harg6 hc0 x0 x1).2.1)

/-- Case B's pieces for output window 3 tile its block, so they cover it. -/
theorem cover0_B_3 (c : Dev nD) (i : grid0.Coords) (arg2 : Memref sig .tc .vmem S32x1024 .i32) (harg2 : arg2.IsWhole) (arg3 : Memref sig .tc .vmem S32x1024 .i32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x64x1 .f32) (harg6 : arg6.IsWhole) (hc0 : ¬cond0_0 i) (x0 : Vec F S32x1024 .i32) (x1 : Vec F S32x1024 .i32)
    (xo2 : Vec F S1x64x64 .f32) (xo3 : Vec F S1x64x1 .f32) (xo4 : Vec F S1x64x1 .f32) (y : S1x64x1.Idx) :
    ∃ pc ∈ (kernelRun0_B c i arg2 harg2 arg3 harg3 arg4 harg4 arg5 harg5 arg6 harg6 hc0 x0 x1 xo2 xo3 xo4).2.1, y ∈ pc.1.set :=
  View.cover_of_tiledL (kernelRun0_B c i arg2 harg2 arg3 harg3 arg4 harg4 arg5 harg5 arg6 harg6 hc0 x0 x1 xo2 xo3 xo4).2.1 S1x64x1.size (by sl_kernel_rfl) y

/-- What case B leaves in output window 3's staging buffer: its pieces read back. -/
def out0_B_3 (c : Dev nD) (i : grid0.Coords) (arg2 : Memref sig .tc .vmem S32x1024 .i32) (harg2 : arg2.IsWhole) (arg3 : Memref sig .tc .vmem S32x1024 .i32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x64x1 .f32) (harg6 : arg6.IsWhole) (hc0 : ¬cond0_0 i) (x0 : Vec F S32x1024 .i32) (x1 : Vec F S32x1024 .i32)
    (xo2 : Vec F S1x64x64 .f32) (xo3 : Vec F S1x64x1 .f32) (xo4 : Vec F S1x64x1 .f32) : Vec F S1x64x1 .f32 :=
  VO0_3.read (Elt F) (VO0_3.writes (Elt F) VO0_3.junk (kernelRun0_B c i arg2 harg2 arg3 harg3 arg4 harg4 arg5 harg5 arg6 harg6 hc0 x0 x1 xo2 xo3 xo4).2.1)

/-- Case A's pieces for output window 4 tile its block, so they cover it. -/
theorem cover0_A_4 (c : Dev nD) (i : grid0.Coords) (arg2 : Memref sig .tc .vmem S32x1024 .i32) (harg2 : arg2.IsWhole) (arg3 : Memref sig .tc .vmem S32x1024 .i32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x64x1 .f32) (harg6 : arg6.IsWhole) (hc0 : cond0_0 i) (x0 : Vec F S32x1024 .i32) (x1 : Vec F S32x1024 .i32) (y : S1x64x1.Idx) :
    ∃ pc ∈ (kernelRun0_A c i arg2 harg2 arg3 harg3 arg4 harg4 arg5 harg5 arg6 harg6 hc0 x0 x1).2.2.1, y ∈ pc.1.set :=
  View.cover_of_tiledL (kernelRun0_A c i arg2 harg2 arg3 harg3 arg4 harg4 arg5 harg5 arg6 harg6 hc0 x0 x1).2.2.1 S1x64x1.size (by sl_kernel_rfl) y

/-- What case A leaves in output window 4's staging buffer: its pieces read back. -/
def out0_A_4 (c : Dev nD) (i : grid0.Coords) (arg2 : Memref sig .tc .vmem S32x1024 .i32) (harg2 : arg2.IsWhole) (arg3 : Memref sig .tc .vmem S32x1024 .i32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x64x1 .f32) (harg6 : arg6.IsWhole) (hc0 : cond0_0 i) (x0 : Vec F S32x1024 .i32) (x1 : Vec F S32x1024 .i32) : Vec F S1x64x1 .f32 :=
  VO0_4.read (Elt F) (VO0_4.writes (Elt F) VO0_4.junk (kernelRun0_A c i arg2 harg2 arg3 harg3 arg4 harg4 arg5 harg5 arg6 harg6 hc0 x0 x1).2.2.1)

/-- Case B's pieces for output window 4 tile its block, so they cover it. -/
theorem cover0_B_4 (c : Dev nD) (i : grid0.Coords) (arg2 : Memref sig .tc .vmem S32x1024 .i32) (harg2 : arg2.IsWhole) (arg3 : Memref sig .tc .vmem S32x1024 .i32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x64x1 .f32) (harg6 : arg6.IsWhole) (hc0 : ¬cond0_0 i) (x0 : Vec F S32x1024 .i32) (x1 : Vec F S32x1024 .i32)
    (xo2 : Vec F S1x64x64 .f32) (xo3 : Vec F S1x64x1 .f32) (xo4 : Vec F S1x64x1 .f32) (y : S1x64x1.Idx) :
    ∃ pc ∈ (kernelRun0_B c i arg2 harg2 arg3 harg3 arg4 harg4 arg5 harg5 arg6 harg6 hc0 x0 x1 xo2 xo3 xo4).2.2.1, y ∈ pc.1.set :=
  View.cover_of_tiledL (kernelRun0_B c i arg2 harg2 arg3 harg3 arg4 harg4 arg5 harg5 arg6 harg6 hc0 x0 x1 xo2 xo3 xo4).2.2.1 S1x64x1.size (by sl_kernel_rfl) y

/-- What case B leaves in output window 4's staging buffer: its pieces read back. -/
def out0_B_4 (c : Dev nD) (i : grid0.Coords) (arg2 : Memref sig .tc .vmem S32x1024 .i32) (harg2 : arg2.IsWhole) (arg3 : Memref sig .tc .vmem S32x1024 .i32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x64x1 .f32) (harg6 : arg6.IsWhole) (hc0 : ¬cond0_0 i) (x0 : Vec F S32x1024 .i32) (x1 : Vec F S32x1024 .i32)
    (xo2 : Vec F S1x64x64 .f32) (xo3 : Vec F S1x64x1 .f32) (xo4 : Vec F S1x64x1 .f32) : Vec F S1x64x1 .f32 :=
  VO0_4.read (Elt F) (VO0_4.writes (Elt F) VO0_4.junk (kernelRun0_B c i arg2 harg2 arg3 harg3 arg4 harg4 arg5 harg5 arg6 harg6 hc0 x0 x1 xo2 xo3 xo4).2.2.1)

/-! ## What the outputs hold after each point -/

/-- The three accumulator blocks after the body at position `n`: at the first tile of a half the reset-and-add case
    on the point's two input tiles; otherwise the add case on them and on what position `n - 1` left. -/
def outsAt0 (c : Dev nD) : (n : ℕ) → n < cfg0.N → Vec F S1x64x64 .f32 × Vec F S1x64x1 .f32 × Vec F S1x64x1 .f32
  | 0, hn =>
    (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩),
     out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩),
     out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩))
  | n + 1, hn =>
    if h0 : (n + 1) % 16 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩),
       out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩),
       out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩)
          (outsAt0 c n (Nat.lt_of_succ_lt hn)).1 (outsAt0 c n (Nat.lt_of_succ_lt hn)).2.1 (outsAt0 c n (Nat.lt_of_succ_lt hn)).2.2,
       out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩)
          (outsAt0 c n (Nat.lt_of_succ_lt hn)).1 (outsAt0 c n (Nat.lt_of_succ_lt hn)).2.1 (outsAt0 c n (Nat.lt_of_succ_lt hn)).2.2,
       out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩)
          (outsAt0 c n (Nat.lt_of_succ_lt hn)).1 (outsAt0 c n (Nat.lt_of_succ_lt hn)).2.1 (outsAt0 c n (Nat.lt_of_succ_lt hn)).2.2)

/-- `outsAt0` at the first tile of a half. -/
theorem outsAt0_A (c : Dev nD) (t : Fin cfg0.N) (h0 : t.val % 16 = 0) :
    outsAt0 m c t.val t.isLt =
      (out0_A_2 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t),
       out0_A_3 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t),
       out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t)) := by
  obtain ⟨n, hn⟩ := t
  cases n with
  | zero => exact rfl
  | succ n => exact (dif_pos h0).trans rfl

/-- `outsAt0` at a later tile of a half: over what the point before left. -/
theorem outsAt0_B (c : Dev nD) (t : Fin cfg0.N) (h0 : ¬t.val % 16 = 0) :
    outsAt0 m c t.val t.isLt =
      (out0_B_2 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t)
          (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2,
       out0_B_3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t)
          (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2,
       out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t)
          (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The region's proof data -/

/-- The arrays as the region finds them; after the body at point `t` each input's buffer at its tile and the three
    outputs' at `outsAt0`; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
    | ⟨4, _⟩ => (outsAt0 m c t.val t.isLt).2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]
theorem after0_4 (c : Dev nD) (t : Fin cfg0.N) : (dats m 0 c).after 4 t = (outsAt0 m c t.val t.isLt).2.2 := by dsimp only [dats]

/-- Each input's current staging buffer holds its tile at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- At a later tile of a half output window 2's current staging buffer holds what the body left at the point before:
    the buffer is written back only after tile 15, so not between. -/
theorem before0_2_B (c : Dev nD) (t : Fin cfg0.N) (h0 : ¬t.val % 16 = 0) (d) :
    (dats m 0 c).before 2 t d = (outsAt0 m c (t.val - 1) (Nat.lt_of_le_of_lt (Nat.sub_le _ _) t.isLt)).1 := by
  have hN : t.val < 32 := lt_of_lt_of_eq t.isLt (show cfg0.N = 32 from N_0)
  rw [Dat.before_out_kept _ 2 rfl t (by omega) (Bool.eq_false_iff.mpr fun h => by have := (flush0_2 _).mp h; dsimp only at this; omega)
    (fun _ => rfl) (fun _ _ => rfl)]
  dsimp only [dats]
/-- At a later tile of a half output window 3's current staging buffer holds what the body left at the point before:
    the buffer is written back only after tile 15, so not between. -/
theorem before0_3_B (c : Dev nD) (t : Fin cfg0.N) (h0 : ¬t.val % 16 = 0) (d) :
    (dats m 0 c).before 3 t d = (outsAt0 m c (t.val - 1) (Nat.lt_of_le_of_lt (Nat.sub_le _ _) t.isLt)).2.1 := by
  have hN : t.val < 32 := lt_of_lt_of_eq t.isLt (show cfg0.N = 32 from N_0)
  rw [Dat.before_out_kept _ 3 rfl t (by omega) (Bool.eq_false_iff.mpr fun h => by have := (flush0_3 _).mp h; dsimp only at this; omega)
    (fun _ => rfl) (fun _ _ => rfl)]
  dsimp only [dats]
/-- At a later tile of a half output window 4's current staging buffer holds what the body left at the point before:
    the buffer is written back only after tile 15, so not between. -/
theorem before0_4_B (c : Dev nD) (t : Fin cfg0.N) (h0 : ¬t.val % 16 = 0) (d) :
    (dats m 0 c).before 4 t d = (outsAt0 m c (t.val - 1) (Nat.lt_of_le_of_lt (Nat.sub_le _ _) t.isLt)).2.2 := by
  have hN : t.val < 32 := lt_of_lt_of_eq t.isLt (show cfg0.N = 32 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 1600000 in
/-- The body at any point: the inputs' memrefs hold their tiles; the closed form of the branch condition says which case
    the point is in; at a later tile the outputs' buffers hold what the point before left; so that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, after0_4]
  have hN : t.val < 32 := lt_of_lt_of_eq t.isLt (show cfg0.N = 32 from N_0)
  by_cases h0 : t.val % 16 = 0
  · rw [outsAt0_A m c t h0]
    dsimp only
    unfold out0_A_2 out0_A_3 out0_A_4
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (iblk m c 0 t) (iblk m c 1 t)).2.2.2 Set.univ _)
    isplitl [H0]; · iexact H0
    isplitl [H1]; · iexact H1
    isplitl [H2]; · iexists _; iexact H2
    isplitl [H3]; · iexists _; iexact H3
    isplitl [H4]; · iexists _; iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _ _ _)
    isplitl [H3]
    · unfold owns; iexists _; isplitr
      swap; · iexact H3
      ipureintro; exact View.read_writes_of_cover _ _ _ _ _ (cover0_A_3 c _ _ _ _ _ _ _ _ _ _ _ _ _ _)
    unfold owns; iexists _; isplitr
    swap; · iexact H4
    ipureintro; exact View.read_writes_of_cover _ _ _ _ _ (cover0_A_4 c _ _ _ _ _ _ _ _ _ _ _ _ _ _)
  · rw [outsAt0_B m c t h0]
    dsimp only
    simp only [before0_2_B m c t h0, before0_3_B m c t h0, before0_4_B m c t h0]
    unfold out0_B_2 out0_B_3 out0_B_4
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0_0 t).mp h)) (iblk m c 0 t) (iblk m c 1 t) _ _ _).2.2.2 Set.univ _)
    isplitl [H0]; · iexact H0
    isplitl [H1]; · iexact H1
    isplitl [H2]; · iexact H2
    isplitl [H3]; · iexact H3
    isplitl [H4]; · iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _ _ _ _)
    isplitl [H3]
    · unfold owns; iexists _; isplitr
      swap; · iexact H3
      ipureintro; exact View.read_writes_of_cover _ _ _ _ _ (cover0_B_3 c _ _ _ _ _ _ _ _ _ _ _ _ _ _ _ _ _)
    unfold owns; iexists _; isplitr
    swap; · iexact H4
    ipureintro; exact View.read_writes_of_cover _ _ _ _ _ (cover0_B_4 c _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, every array of the region ends at what the library computes from
    the proof data, and every other unscoped buffer as the host operations after the region leave it. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh) (hkeep := tail_keeps)
    (hmain := hmain m Variants.none) (hA := A_eq m) (hΦ := fun _ _ => rfl)

/-- The frame: the two argument arrays are staged inputs of the region, which the run leaves at their entry contents,
    and those are the launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c)))⟩) (run_main m ρ)

end Cert.KernelIdeal.Fr

end
-- ==== Proof.KernelIdeal.Pieces.lean ====
/-
  The frame of `KernelIdeal`: what each case's stores amount to, as the body's arithmetic.

  Every store of the body covers its whole block, so what a buffer holds after the body is the payload of its last
  store, its loads read from the whole buffers: at a later tile "the block as the tile before left it, plus this tile's
  contribution"; at the first tile of a half the same over the zero block just stored (the load that follows the reset
  reads the zeros back).
-/
import proofs.«107126_j81801947120084_1_alg».proof.Proof.KernelIdeal.Frame
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-! ## A later tile of a half -/

/-- The intersection block: what was there plus this tile's products. -/
theorem piece_B_2 (c : Dev nD) (i : grid0.Coords) (arg2 : Memref sig .tc .vmem S32x1024 .i32) (harg2 : arg2.IsWhole) (arg3 : Memref sig .tc .vmem S32x1024 .i32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x64x1 .f32) (harg6 : arg6.IsWhole) (hc : ¬cond0_0 i) (x0 x1 : Vec F S32x1024 .i32) (xo2 : Vec F S1x64x64 .f32) (xo3 xo4 : Vec F S1x64x1 .f32) :
    out0_B_2 c i arg2 harg2 arg3 harg3 arg4 harg4 arg5 harg5 arg6 harg6 hc x0 x1 xo2 xo3 xo4 = k0_pay9 x0 x1 xo2 := by
  unfold out0_B_2
  rw [View.read_writes_eq_canon _ _ _ (cover0_B_2 c i arg2 harg2 arg3 harg3 arg4 harg4 arg5 harg5 arg6 harg6 hc x0 x1 xo2 xo3 xo4)]
  unfold kernelRun0_B
  dsimp only
  sl_unfold_words
  rw [View.canon_unit_zero hz3]
  simp only [View.readAt_eq_ld, harg2.read_unread, harg3.read_unread, harg4.read_unread,
    View.ld_unit_zero (S := S32x1024) hz2, View.ld_unit_zero (S := S1x64x64) hz3]

/-- The first mask's area block: what was there plus this tile's row sums. -/
theorem piece_B_3 (c : Dev nD) (i : grid0.Coords) (arg2 : Memref sig .tc .vmem S32x1024 .i32) (harg2 : arg2.IsWhole) (arg3 : Memref sig .tc .vmem S32x1024 .i32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x64x1 .f32) (harg6 : arg6.IsWhole) (hc : ¬cond0_0 i) (x0 x1 : Vec F S32x1024 .i32) (xo2 : Vec F S1x64x64 .f32) (xo3 xo4 : Vec F S1x64x1 .f32) :
    out0_B_3 c i arg2 harg2 arg3 harg3 arg4 harg4 arg5 harg5 arg6 harg6 hc x0 x1 xo2 xo3 xo4 = k0_pay1 (k0_pay10 x0 xo3) := by
  unfold out0_B_3
  rw [View.read_writes_eq_canon _ _ _ (cover0_B_3 c i arg2 harg2 arg3 harg3 arg4 harg4 arg5 harg5 arg6 harg6 hc x0 x1 xo2 xo3 xo4)]
  unfold kernelRun0_B
  dsimp only
  sl_unfold_words
  rw [View.canon_unit_zero hz3]
  simp only [View.readAt_eq_ld, harg2.read_unread, harg5.read_unread,
    View.ld_unit_zero (S := S32x1024) hz2, View.ld_unit_zero (S := S1x64x1) hz3]

/-- The second mask's area block. -/
theorem piece_B_4 (c : Dev nD) (i : grid0.Coords) (arg2 : Memref sig .tc .vmem S32x1024 .i32) (harg2 : arg2.IsWhole) (arg3 : Memref sig .tc .vmem S32x1024 .i32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x64x1 .f32) (harg6 : arg6.IsWhole) (hc : ¬cond0_0 i) (x0 x1 : Vec F S32x1024 .i32) (xo2 : Vec F S1x64x64 .f32) (xo3 xo4 : Vec F S1x64x1 .f32) :
    out0_B_4 c i arg2 harg2 arg3 harg3 arg4 harg4 arg5 harg5 arg6 harg6 hc x0 x1 xo2 xo3 xo4 = k0_pay2 (k0_pay8 x1) xo4 := by
  unfold out0_B_4
  rw [View.read_writes_eq_canon _ _ _ (cover0_B_4 c i arg2 harg2 arg3 harg3 arg4 harg4 arg5 harg5 arg6 harg6 hc x0 x1 xo2 xo3 xo4)]
  unfold kernelRun0_B
  dsimp only
  sl_unfold_words
  rw [View.canon_unit_zero hz3]
  simp only [View.readAt_eq_ld, harg3.read_unread, harg6.read_unread,
    View.ld_unit_zero (S := S32x1024) hz2, View.ld_unit_zero (S := S1x64x1) hz3]

/-! ## The first tile of a half -/

/-- The intersection block: the zero block plus this tile's products. -/
theorem piece_A_2 (c : Dev nD) (i : grid0.Coords) (arg2 : Memref sig .tc .vmem S32x1024 .i32) (harg2 : arg2.IsWhole) (arg3 : Memref sig .tc .vmem S32x1024 .i32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x64x1 .f32) (harg6 : arg6.IsWhole) (hc : cond0_0 i) (x0 x1 : Vec F S32x1024 .i32) :
    out0_A_2 c i arg2 harg2 arg3 harg3 arg4 harg4 arg5 harg5 arg6 harg6 hc x0 x1 = k0_pay9 x0 x1 k0_pay3 := by
  unfold out0_A_2
  rw [View.read_writes_eq_canon _ _ _ (cover0_A_2 c i arg2 harg2 arg3 harg3 arg4 harg4 arg5 harg5 arg6 harg6 hc x0 x1)]
  unfold kernelRun0_A
  dsimp only
  sl_unfold_words
  rw [View.canon_cons_unit_zero (S := S1x64x64) hz3]
  simp only [View.readAt_eq_ld, harg2.read_unread, harg3.read_unread,
    View.ld_unit_zero (S := S32x1024) hz2, View.readCov_unit_zero (S := S1x64x64) _ hz3]

/-- The first mask's area block: zeros plus this tile's row sums. -/
theorem piece_A_3 (c : Dev nD) (i : grid0.Coords) (arg2 : Memref sig .tc .vmem S32x1024 .i32) (harg2 : arg2.IsWhole) (arg3 : Memref sig .tc .vmem S32x1024 .i32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x64x1 .f32) (harg6 : arg6.IsWhole) (hc : cond0_0 i) (x0 x1 : Vec F S32x1024 .i32) :
    out0_A_3 c i arg2 harg2 arg3 harg3 arg4 harg4 arg5 harg5 arg6 harg6 hc x0 x1 = k0_pay1 (k0_pay10 x0 k0_pay4) := by
  unfold out0_A_3
  rw [View.read_writes_eq_canon _ _ _ (cover0_A_3 c i arg2 harg2 arg3 harg3 arg4 harg4 arg5 harg5 arg6 harg6 hc x0 x1)]
  unfold kernelRun0_A
  dsimp only
  sl_unfold_words
  rw [View.canon_cons_unit_zero (S := S1x64x1) hz3]
  simp only [View.readAt_eq_ld, harg2.read_unread,
    View.ld_unit_zero (S := S32x1024) hz2, View.readCov_unit_zero (S := S1x64x1) _ hz3]

/-- The second mask's area block. -/
theorem piece_A_4 (c : Dev nD) (i : grid0.Coords) (arg2 : Memref sig .tc .vmem S32x1024 .i32) (harg2 : arg2.IsWhole) (arg3 : Memref sig .tc .vmem S32x1024 .i32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x64x1 .f32) (harg6 : arg6.IsWhole) (hc : cond0_0 i) (x0 x1 : Vec F S32x1024 .i32) :
    out0_A_4 c i arg2 harg2 arg3 harg3 arg4 harg4 arg5 harg5 arg6 harg6 hc x0 x1 = k0_pay2 (k0_pay8 x1) k0_pay5 := by
  unfold out0_A_4
  rw [View.read_writes_eq_canon _ _ _ (cover0_A_4 c i arg2 harg2 arg3 harg3 arg4 harg4 arg5 harg5 arg6 harg6 hc x0 x1)]
  unfold kernelRun0_A
  dsimp only
  sl_unfold_words
  rw [View.canon_cons_unit_zero (S := S1x64x1) hz3]
  simp only [View.readAt_eq_ld, harg3.read_unread,
    View.ld_unit_zero (S := S32x1024) hz2, View.readCov_unit_zero (S := S1x64x1) _ hz3]

end Cert.KernelIdeal.Fr

end
-- ==== Proof.Spec.lean ====
/-
  The common vocabulary of the two sides.

  Both programs build, for a 1024 × 1024 mask of instance labels, the 64 indicator rows "pixel n carries label p + 1"
  (labels 1 … 64; 0 is background), and from them the 64 × 64 table of pairwise intersections and the 64 areas.
  The reference sums over all 1048576 pixels at once; the kernel sums over one 32-row tile (32768 pixels) at a time,
  sixteen tiles per half of the image, and adds the two halves afterwards. Here: the indicator as an extended real, a
  pixel of the row-major flattening as an index of the mask, a pixel of a tile, and the sums both sides are read as.
-/
import Idealize.ShloMosaic.PureOps.Ideal
import Idealize.ShloMosaic.Lib.ValueIdx

noncomputable section

open scoped BigOperators

namespace Cert.Spec

open Idealize.ShloMosaic Idealize.ShloMosaic.ValueIdx

/-- The mask's shape, and a tile's. -/
abbrev Mask : Shape := ⟨2, ![1024, 1024]⟩
abbrev Tile : Shape := ⟨2, ![32, 1024]⟩

/-- The indicator of "the pixel word `a` is the label `p + 1`": 1 or 0. -/
def hot (a : BitVec 32) (p : Fin 64) : EReal := if a = BitVec.ofNat 32 (p.val + 1) then 1 else 0

/-- Pixel `n` of the row-major flattening, as an index of the mask: row `n / 1024`, column `n % 1024`. -/
def pix (n : Fin 1048576) : Mask.Idx :=
  ix2 (⟨n.val / 1024, by have := n.isLt; omega⟩ : Fin 1024) (⟨n.val % 1024, by have := n.isLt; omega⟩ : Fin 1024)

/-- Position `j` of a tile's row-major flattening, as an index of the tile: row `j / 1024`, column `j % 1024`. -/
def blkPix (j : Fin 32768) : Tile.Idx :=
  ix2 (⟨j.val / 1024, by have := j.isLt; omega⟩ : Fin 32) (⟨j.val % 1024, by have := j.isLt; omega⟩ : Fin 1024)

/-- Position `j` of tile `t` (rows `32 t … 32 t + 31`) as a pixel of the whole image. -/
def tilePix (t : Fin 32) (j : Fin 32768) : Fin 1048576 :=
  ⟨t.val * 32768 + j.val, by have := t.isLt; have := j.isLt; omega⟩

/-- Tile `r` of half `c` is tile `16 c + r` of the image. -/
def tileOf (c : Fin 2) (r : Fin 16) : Fin 32 := ⟨c.val * 16 + r.val, by have := c.isLt; have := r.isLt; omega⟩

/-- The intersection count of labels `p + 1` (first mask) and `q + 1` (second mask) over the whole image. -/
def fullInter (x0 x1 : Mask.Idx → BitVec 32) (p q : Fin 64) : EReal :=
  ∑ n : Fin 1048576, hot (x0 (pix n)) p * hot (x1 (pix n)) q
/-- The area of label `p + 1` over the whole image. -/
def fullArea (x : Mask.Idx → BitVec 32) (p : Fin 64) : EReal :=
  ∑ n : Fin 1048576, hot (x (pix n)) p

/-- The same two sums over one tile. -/
def tileInter (x0 x1 : Mask.Idx → BitVec 32) (t : Fin 32) (p q : Fin 64) : EReal :=
  ∑ j : Fin 32768, hot (x0 (pix (tilePix t j))) p * hot (x1 (pix (tilePix t j))) q
def tileArea (x : Mask.Idx → BitVec 32) (t : Fin 32) (p : Fin 64) : EReal :=
  ∑ j : Fin 32768, hot (x (pix (tilePix t j))) p

end Cert.Spec

end
-- ==== Proof.KernelIdeal.PayValue.lean ====
/-
  The kernel body's arithmetic at the ideal values, read at an index.

  One step of the kernel takes a 32 x 1024 tile of each label mask, lays it out as one row of 32768 pixels, compares the
  row with the column of labels 1 ... 64 and so builds the 64 x 32768 table of indicators "pixel j carries label p + 1" of
  each mask. The product of the first table with the transpose of the second, added to the accumulator, is the table of
  intersections; the row sums of each table, added to the accumulators, are the areas. Here each stored value is read at
  an index as the accumulator there plus a sum over the tile's 32768 pixels of indicators, and the three values stored at
  the first tile of a half are read as zero.
-/
import proofs.«107126_j81801947120084_1_alg».proof.Proof.Gen.KernelIdeal.Skeleton
import proofs.«107126_j81801947120084_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayValue

open Cert.KernelIdeal Cert.KernelIdeal.Gen Idealize.ShloMosaic Idealize.ShloMosaic.ValueIdx

/-! ## The indicator as a word -/

/-- The label column: row `p` holds the word `p + 1`. -/
theorem word_succ (p : Fin 64) : IntOp.addi (BitVec.ofNat 32 p.val) 1#32 = BitVec.ofNat 32 (p.val + 1) :=
  (BitVec.ofNat_add p.val 1).symm

/-- The one-bit comparison of two words, widened to 32 bits and read as a signed integer, is 1 where the words agree and
    0 elsewhere: as a real, the indicator. -/
theorem hot_word (a : BitVec 32) (p : Fin 64) :
    FloatOps.sitofp (F := Ideal) .f32 ((IntOp.cmpi .eq a (IntOp.addi (BitVec.ofNat 32 p.val) 1#32)).setWidth 32)
      = Cert.Spec.hot a p := by
  rw [word_succ]
  show (((((IntOp.cmpi .eq a (BitVec.ofNat 32 (p.val + 1))).setWidth 32).toInt : ℝ)) : EReal) = _
  unfold Cert.Spec.hot IntOp.cmpi
  by_cases h : a = BitVec.ofNat 32 (p.val + 1)
  · rw [if_pos h]
    have hb : (a == BitVec.ofNat 32 (p.val + 1)) = true := by rw [h]; exact beq_self_eq_true _
    show ((((BitVec.ofBool (a == BitVec.ofNat 32 (p.val + 1))).setWidth 32).toInt : ℝ) : EReal) = 1
    rw [hb]
    have : ((BitVec.ofBool true).setWidth 32).toInt = 1 := by decide
    rw [this]; norm_num
  · rw [if_neg h]
    have hb : (a == BitVec.ofNat 32 (p.val + 1)) = false := by
      rw [beq_eq_false_iff_ne]; exact h
    show ((((BitVec.ofBool (a == BitVec.ofNat 32 (p.val + 1))).setWidth 32).toInt : ℝ) : EReal) = 0
    rw [hb]
    have : ((BitVec.ofBool false).setWidth 32).toInt = 0 := by decide
    rw [this]; norm_num

/-! ## Layout operations the body uses, at an index -/

section Layout
variable {α : Type}

/-- A column `[a, 1]` broadcast to `[a, b]` reads, at `(p, c)`, the column's row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A 32 x 1024 tile laid out as one row of 32768 reads, at position `j`, the tile at row `j / 1024`, column
    `j % 1024`: the two have the same row-major position. -/
theorem tile_row_apply (x : S32x1024.Idx → α) (h : S32x1024.ShapeCasts S1x32768) (j : Fin 32768) :
    shapeCast S1x32768 x h (ix2 (0 : Fin 1) j) = x (Cert.Spec.blkPix j) :=
  shapeCast_apply x h _ _ (by
    rw [Shape.rowMajor_val_two, Shape.rowMajor_val_two]
    show (j.val / 1024) * 1024 + j.val % 1024 = 0 * 32768 + j.val
    omega)

end Layout

/-! ## The indicator tables -/

/-- The label column at row `p` is the word `p + 1`: the row number plus the broadcast one. -/
theorem pay6_apply (p : Fin 64) : k0_pay6 (ix2 p (0 : Fin 1)) = IntOp.addi (BitVec.ofNat 32 p.val) 1#32 := by
  unfold k0_pay6
  show IntOp.addi (iota .tc S64x1 32 [0] iota_S64x1_d0_w32 (ix2 p (0 : Fin 1))) (broadcast S64x1 1#32 (ix2 p (0 : Fin 1))) = _
  rw [iota_single_apply, broadcast_apply]

/-- The indicator table of a tile: row `p`, position `j` is the indicator of "pixel `j` of the tile carries label
    `p + 1`". -/
theorem pay7_apply (b : Vec Ideal S32x1024 .i32) (p : Fin 64) (j : Fin 32768) :
    k0_pay7 (F := Ideal) b (ix2 p j) = Cert.Spec.hot (b (Cert.Spec.blkPix j)) p := by
  unfold k0_pay7
  show FloatOps.sitofp (F := Ideal) .f32
      ((IntOp.cmpi .eq
        (broadcastTo S64x32768 (shapeCast S1x32768 b shapeCasts_S32x1024_S1x32768) broadcasts_S1x32768_S64x32768 (ix2 p j))
        (broadcastTo S64x32768 k0_pay6 broadcasts_S64x1_S64x32768 (ix2 p j))).setWidth 32) = _
  rw [broadcastTo_1b_ab_apply, broadcastTo_a1_ab_apply, tile_row_apply, pay6_apply, hot_word]

/-- The second mask's table is built by the same operations. -/
theorem pay8_apply (b : Vec Ideal S32x1024 .i32) (q : Fin 64) (j : Fin 32768) :
    k0_pay8 (F := Ideal) b (ix2 q j) = Cert.Spec.hot (b (Cert.Spec.blkPix j)) q := by
  unfold k0_pay8
  show FloatOps.sitofp (F := Ideal) .f32
      ((IntOp.cmpi .eq
        (broadcastTo S64x32768 (shapeCast S1x32768 b shapeCasts_S32x1024_S1x32768) broadcasts_S1x32768_S64x32768 (ix2 q j))
        (broadcastTo S64x32768 k0_pay6 broadcasts_S64x1_S64x32768 (ix2 q j))).setWidth 32) = _
  rw [broadcastTo_1b_ab_apply, broadcastTo_a1_ab_apply, tile_row_apply, pay6_apply, hot_word]

/-! ## The product of the two tables -/

theorem lhs_mm_0 (i : S64x64.Idx) (q : dot_S64x32768_S32768x64_S64x64_1_0_0_1_n_n.contr.Idx) :
    (dot_S64x32768_S32768x64_S64x64_1_0_0_1_n_n.lhsIdx i q 0).val = (i 0).val := by
  unfold DotDims.lhsIdx
  rw [dif_neg (show ¬(0 : Fin S64x32768.rank) ∈ dot_S64x32768_S32768x64_S64x64_1_0_0_1_n_n.lhsBatch by decide), dif_pos (show (0 : Fin S64x32768.rank) ∈ dot_S64x32768_S32768x64_S64x64_1_0_0_1_n_n.lhsNonContracting by decide)]
  rfl
theorem lhs_mm_1 (i : S64x64.Idx) (q : dot_S64x32768_S32768x64_S64x64_1_0_0_1_n_n.contr.Idx) :
    (dot_S64x32768_S32768x64_S64x64_1_0_0_1_n_n.lhsIdx i q 1).val = (q ⟨0, by decide⟩).val :=
  dot_S64x32768_S32768x64_S64x64_1_0_0_1_n_n.lhsIdx_val_of_single rfl i q
theorem rhs_mm_0 (i : S64x64.Idx) (q : dot_S64x32768_S32768x64_S64x64_1_0_0_1_n_n.contr.Idx) :
    (dot_S64x32768_S32768x64_S64x64_1_0_0_1_n_n.rhsIdx i q 0).val = (q ⟨0, by decide⟩).val :=
  dot_S64x32768_S32768x64_S64x64_1_0_0_1_n_n.rhsIdx_val_of_single rfl i q
theorem rhs_mm_1 (i : S64x64.Idx) (q : dot_S64x32768_S32768x64_S64x64_1_0_0_1_n_n.contr.Idx) :
    (dot_S64x32768_S32768x64_S64x64_1_0_0_1_n_n.rhsIdx i q 1).val = (i 1).val := by
  unfold DotDims.rhsIdx
  rw [dif_neg (show ¬(1 : Fin S32768x64.rank) ∈ dot_S64x32768_S32768x64_S64x64_1_0_0_1_n_n.rhsBatch by decide), dif_pos (show (1 : Fin S32768x64.rank) ∈ dot_S64x32768_S32768x64_S64x64_1_0_0_1_n_n.rhsNonContracting by decide)]
  rfl

/-- The 64 x 32768 by 32768 x 64 product into the zero table reads, at `(p, q)`, the sum over the 32768 positions of
    the left factor's row `p` times the right factor's column `q`. -/
theorem mm_apply (L : FVec Ideal S64x32768 .bf16) (R : FVec Ideal S32768x64 .bf16) (p q : Fin 64) :
    matmul dot_S64x32768_S32768x64_S64x64_1_0_0_1_n_n none L R (constant (F := Ideal) S64x64 .f32 0x00000000#32) (ix2 p q)
      = ∑ k : Fin 32768, L (ix2 p k) * R (ix2 k q) := by
  simp only [matmul]
  rw [Ideal.matmul_constant_zero_apply, ← Equiv.sum_comp (contrEquiv1 dot_S64x32768_S32768x64_S64x64_1_0_0_1_n_n 32768 rfl rfl).symm]
  refine Finset.sum_congr rfl fun k _ => ?_
  have hk := contrEquiv1_symm_val dot_S64x32768_S32768x64_S64x64_1_0_0_1_n_n 32768 rfl rfl k
  have el : dot_S64x32768_S32768x64_S64x64_1_0_0_1_n_n.lhsIdx (ix2 p q) ((contrEquiv1 dot_S64x32768_S32768x64_S64x64_1_0_0_1_n_n 32768 rfl rfl).symm k) = ix2 p k := funext fun a => Fin.ext (by
    match a with
    | ⟨0, _⟩ => exact lhs_mm_0 _ _
    | ⟨1, _⟩ => exact (lhs_mm_1 _ _).trans hk)
  have er : dot_S64x32768_S32768x64_S64x64_1_0_0_1_n_n.rhsIdx (ix2 p q) ((contrEquiv1 dot_S64x32768_S32768x64_S64x64_1_0_0_1_n_n 32768 rfl rfl).symm k) = ix2 k q := funext fun a => Fin.ext (by
    match a with
    | ⟨0, _⟩ => exact (rhs_mm_0 _ _).trans hk
    | ⟨1, _⟩ => exact rhs_mm_1 _ _)
  rw [el, er]

/-! ## The row sums -/

/-- The sum of a 64 x 32768 table along its rows reads, at `p`, the sum over the 32768 positions of row `p`. -/
theorem rowsum_apply (src : FVec Ideal S64x32768 .f32) (p : Fin 64) :
    multiReduction (F := Ideal) .add [1] S64 src 0x00000000#32 reduces_S64x32768_S64 (.inl rfl) rfl (ix1 p)
      = ∑ j : Fin 32768, src (ix2 p j) := by
  refine (Ideal.multiReduction_add_single src 0x00000000#32 reduces_S64x32768_S64 (.inl rfl) rfl (ix1 p)).trans ?_
  refine Finset.sum_congr rfl fun j _ => congrArg src ?_
  funext a
  match a with
  | ⟨0, _⟩ => exact Fin.ext rfl
  | ⟨1, _⟩ => exact Fin.ext rfl

/-! ## The stored values -/

/-- The intersection table after one step: the accumulator plus, over the tile's pixels, the product of the two
    indicators. -/
theorem pay_inter (b0 b1 : Vec Ideal S32x1024 .i32) (acc : Vec Ideal S1x64x64 .f32) (p q : Fin 64) :
    k0_pay9 (F := Ideal) b0 b1 acc (ix3 (0 : Fin 1) p q)
      = acc (ix3 (0 : Fin 1) p q) + ∑ j : Fin 32768, Cert.Spec.hot (b0 (Cert.Spec.blkPix j)) p * Cert.Spec.hot (b1 (Cert.Spec.blkPix j)) q := by
  unfold k0_pay9
  dsimp only
  rw [shapeCast_ab_1ab_apply, addf_apply, shapeCast_1ab_ab_apply, mm_apply]
  refine congrArg (acc (ix3 (0 : Fin 1) p q) + ·) (Finset.sum_congr rfl fun j _ => ?_)
  rw [truncf_apply, transpose_ix2_apply, truncf_apply, pay7_apply, pay8_apply]

/-- The first mask's areas after one step: the accumulator plus, over the tile's pixels, the indicator. -/
theorem pay_areaP (b0 : Vec Ideal S32x1024 .i32) (acc : Vec Ideal S1x64x1 .f32) (p : Fin 64) :
    k0_pay1 (F := Ideal) (k0_pay10 (F := Ideal) b0 acc) (ix3 (0 : Fin 1) p (0 : Fin 1))
      = acc (ix3 (0 : Fin 1) p (0 : Fin 1)) + ∑ j : Fin 32768, Cert.Spec.hot (b0 (Cert.Spec.blkPix j)) p := by
  unfold k0_pay1 k0_pay10
  dsimp only
  rw [shapeCast_ab_1ab_apply, addf_apply, shapeCast_1ab_ab_apply, shapeCast_a_a1_apply, rowsum_apply]
  refine congrArg (acc (ix3 (0 : Fin 1) p (0 : Fin 1)) + ·) (Finset.sum_congr rfl fun j _ => ?_)
  rw [pay7_apply]

/-- The second mask's areas after one step. -/
theorem pay_areaT (b1 : Vec Ideal S32x1024 .i32) (acc : Vec Ideal S1x64x1 .f32) (q : Fin 64) :
    k0_pay2 (F := Ideal) (k0_pay8 (F := Ideal) b1) acc (ix3 (0 : Fin 1) q (0 : Fin 1))
      = acc (ix3 (0 : Fin 1) q (0 : Fin 1)) + ∑ j : Fin 32768, Cert.Spec.hot (b1 (Cert.Spec.blkPix j)) q := by
  unfold k0_pay2
  dsimp only
  rw [shapeCast_ab_1ab_apply, addf_apply, shapeCast_1ab_ab_apply, shapeCast_a_a1_apply, rowsum_apply]
  refine congrArg (acc (ix3 (0 : Fin 1) q (0 : Fin 1)) + ·) (Finset.sum_congr rfl fun j _ => ?_)
  rw [pay8_apply]

/-! ## The values stored at the first tile of a half -/

/-- The f32 zero word, broadcast, is zero everywhere. -/
theorem zero_word : Scalar.ofBits (F := Ideal) .f32 0x00000000#32 = 0 := Ideal.ofBits_zero_f32

theorem pay_zero_inter (p q : Fin 64) : k0_pay3 (F := Ideal) (ix3 (0 : Fin 1) p q) = 0 := by
  unfold k0_pay3
  rw [shapeCast_ab_1ab_apply, broadcast_apply, zero_word]

theorem pay_zero_areaP (p : Fin 64) : k0_pay4 (F := Ideal) (ix3 (0 : Fin 1) p (0 : Fin 1)) = 0 := by
  unfold k0_pay4
  rw [shapeCast_ab_1ab_apply, broadcast_apply, zero_word]

theorem pay_zero_areaT (q : Fin 64) : k0_pay5 (F := Ideal) (ix3 (0 : Fin 1) q (0 : Fin 1)) = 0 := by
  unfold k0_pay5
  rw [shapeCast_ab_1ab_apply, broadcast_apply, zero_word]

end Cert.KernelIdeal.PayValue

end
-- ==== Proof.SumSplit.lean ====
/-
  Regrouping of the pixel sums.

  The sum over all 1048576 pixels of the row-major flattening is the sum over the two halves, the sixteen tiles of a
  half and the 32768 positions of a tile: pixel (16 c + r) · 32768 + j is position j of tile r of half c, and every
  pixel is reached exactly once (quotient and remainder). Only addition in a commutative monoid is reordered, so
  nothing about finiteness of the summands is needed. Also: the running sum of the first tiles of a half, as it is
  accumulated one tile at a time from a zero start.
-/
import proofs.«107126_j81801947120084_1_alg».proof.Proof.Spec
import Mathlib.Algebra.BigOperators.Fin
import Mathlib.Algebra.BigOperators.Group.Finset.Basic
import Mathlib.Algebra.BigOperators.Group.Finset.Piecewise
import Mathlib.Data.Fintype.BigOperators

noncomputable section

open scoped BigOperators

namespace Cert.Spec

/-- the sum of the first tiles of a half: tiles 0 … r -/
def upTo (T : Fin 16 → EReal) (r : ℕ) : EReal := ∑ k : Fin 16, if k.val ≤ r then T k else 0

/-- A single term is the sum that keeps only that term. -/
theorem SumSplit.single_eq_sum (T : Fin 16 → EReal) (a : Fin 16) :
    T a = ∑ k : Fin 16, if k = a then T k else 0 := by
  rw [Finset.sum_ite_eq' Finset.univ a T, if_pos (Finset.mem_univ a)]

theorem upTo_zero (T : Fin 16 → EReal) : (0 : EReal) + T 0 = upTo T 0 := by
  unfold upTo
  rw [zero_add, SumSplit.single_eq_sum T 0]
  refine Finset.sum_congr rfl ?_
  intro k _
  by_cases hk : k = 0
  · have h0 : k.val ≤ 0 := by rw [hk]; exact Nat.le_refl _
    rw [if_pos hk, if_pos h0]
  · have h0 : ¬ k.val ≤ 0 := by
      intro hle
      apply hk
      apply Fin.ext
      have : (0 : Fin 16).val = 0 := rfl
      omega
    rw [if_neg hk, if_neg h0]

theorem upTo_succ (T : Fin 16 → EReal) (r : ℕ) (h : r + 1 < 16) :
    upTo T r + T ⟨r + 1, h⟩ = upTo T (r + 1) := by
  unfold upTo
  rw [SumSplit.single_eq_sum T ⟨r + 1, h⟩, ← Finset.sum_add_distrib]
  refine Finset.sum_congr rfl ?_
  intro k _
  by_cases h1 : k.val ≤ r
  · -- a tile among the first r + 1: counted on the left by the running sum only
    have h2 : ¬ k = ⟨r + 1, h⟩ := by
      intro hh
      have : k.val = r + 1 := by rw [hh]
      omega
    have h3 : k.val ≤ r + 1 := by omega
    rw [if_pos h1, if_neg h2, if_pos h3, add_zero]
  · by_cases h2 : k = ⟨r + 1, h⟩
    · -- the new tile
      have h3 : k.val ≤ r + 1 := by rw [h2]
      rw [if_neg h1, if_pos h2, if_pos h3, zero_add]
    · -- a later tile: counted on neither side
      have h3 : ¬ k.val ≤ r + 1 := by
        intro hle
        apply h2
        apply Fin.ext
        show k.val = r + 1
        omega
      rw [if_neg h1, if_neg h2, if_neg h3, add_zero]

theorem upTo_full (T : Fin 16 → EReal) : upTo T 15 = ∑ k : Fin 16, T k := by
  unfold upTo
  refine Finset.sum_congr rfl ?_
  intro k _
  have hk : k.val ≤ 15 := by have := k.isLt; omega
  rw [if_pos hk]

/-- Half, tile of the half and position in the tile, against the pixel of the flattening:
(c, r, j) ↦ (16 c + r) · 32768 + j, with inverse by quotient and remainder. -/
def SumSplit.pixEquiv : Fin 2 × Fin 16 × Fin 32768 ≃ Fin 1048576 where
  toFun x := tilePix (tileOf x.1 x.2.1) x.2.2
  invFun n :=
    (⟨n.val / 524288, by have := n.isLt; omega⟩,
     ⟨n.val / 32768 % 16, by omega⟩,
     ⟨n.val % 32768, by omega⟩)
  left_inv := by
    rintro ⟨c, r, j⟩
    have hc := c.isLt
    have hr := r.isLt
    have hj := j.isLt
    refine Prod.ext (Fin.ext ?_) (Prod.ext (Fin.ext ?_) (Fin.ext ?_))
    · show ((c.val * 16 + r.val) * 32768 + j.val) / 524288 = c.val
      omega
    · show ((c.val * 16 + r.val) * 32768 + j.val) / 32768 % 16 = r.val
      omega
    · show ((c.val * 16 + r.val) * 32768 + j.val) % 32768 = j.val
      omega
  right_inv := by
    intro n
    have hn := n.isLt
    apply Fin.ext
    show (n.val / 524288 * 16 + n.val / 32768 % 16) * 32768 + n.val % 32768 = n.val
    omega

theorem SumSplit.pixEquiv_apply (c : Fin 2) (r : Fin 16) (j : Fin 32768) :
    SumSplit.pixEquiv (c, r, j) = tilePix (tileOf c r) j := rfl

theorem sum_pixels_split (g : Fin 1048576 → EReal) :
    ∑ n : Fin 1048576, g n = ∑ c : Fin 2, ∑ r : Fin 16, ∑ j : Fin 32768, g (tilePix (tileOf c r) j) := by
  rw [← Equiv.sum_comp SumSplit.pixEquiv g, Fintype.sum_prod_type]
  refine Finset.sum_congr rfl ?_
  intro c _
  rw [Fintype.sum_prod_type]
  refine Finset.sum_congr rfl ?_
  intro r _
  refine Finset.sum_congr rfl ?_
  intro j _
  rw [SumSplit.pixEquiv_apply]

theorem fullInter_split (x0 x1 : Mask.Idx → BitVec 32) (p q : Fin 64) :
    fullInter x0 x1 p q = ∑ c : Fin 2, ∑ r : Fin 16, tileInter x0 x1 (tileOf c r) p q := by
  unfold fullInter tileInter
  exact sum_pixels_split (fun n => hot (x0 (pix n)) p * hot (x1 (pix n)) q)

theorem fullArea_split (x : Mask.Idx → BitVec 32) (p : Fin 64) :
    fullArea x p = ∑ c : Fin 2, ∑ r : Fin 16, tileArea x (tileOf c r) p := by
  unfold fullArea tileArea
  exact sum_pixels_split (fun n => hot (x (pix n)) p)

/-- the host's sum over the two halves, with its zero start -/
theorem two_halves (a : Fin 2 → EReal) : (0 : EReal) + ∑ c : Fin 2, a c = a 0 + a 1 := by
  rw [Fin.sum_univ_two, zero_add]

end Cert.Spec

end
-- ==== Proof.KernelIdeal.Accum.lean ====
/-
  The kernel's accumulators, point by point, at the ideal instance.

  Point t of the grid is tile t of the image (rows 32 t … 32 t + 31): the two input windows' block index is (t, 0).
  Position j of a tile's row-major flattening is therefore pixel 32768 t + j of the image. With the body's arithmetic
  read at an index (the update adds, to each entry of the three accumulator blocks, this tile's sum of indicator
  products or of indicators; the reset stores zeros), the blocks after tile r of half h hold the sums over tiles
  0 … r of that half: by induction on r, the first tile being the reset-and-add case and every later one the add case
  over what the tile before left.
-/
import proofs.«107126_j81801947120084_1_alg».proof.Proof.KernelIdeal.Pieces
import proofs.«107126_j81801947120084_1_alg».proof.Proof.KernelIdeal.PayValue
import proofs.«107126_j81801947120084_1_alg».proof.Proof.SumSplit
import Idealize.ShloMosaic.Lib.Pipeline.Value

set_option maxRecDepth 16384

noncomputable section

open scoped BigOperators

namespace Cert.KernelIdeal.KV

open Cert.KernelIdeal Cert.KernelIdeal.Gen Cert.KernelIdeal.Fr Cert.KernelIdeal.PayValue Cert.Spec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The two masks as the region finds them, and their tiles at a point, at their literal types. -/
abbrev X0 (c : Dev nD) : Mask.Idx → BitVec 32 := V m c main_arg0
abbrev X1 (c : Dev nD) : Mask.Idx → BitVec 32 := V m c main_arg1
abbrev blk0 (c : Dev nD) (t : Fin cfg0.N) : Vec Ideal S32x1024 .i32 := iblk m c 0 t
abbrev blk1 (c : Dev nD) (t : Fin cfg0.N) : Vec Ideal S32x1024 .i32 := iblk m c 1 t

/-- A grid point as a tile number. -/
def tl (t : Fin cfg0.N) : Fin 32 := ⟨t.val, lt_of_lt_of_eq t.isLt N_0⟩

/-- Tile r of half h is a grid point. -/
theorem pt_lt (h : Fin 2) (r : ℕ) (hr : r < 16) : h.val * 16 + r < cfg0.N := by
  show _ < grid0.N
  rw [N_0]; have := h.isLt; omega

/-- The input windows' block index at point t is (t, 0). -/
theorem idx_in : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Position j of tile t of the first mask is pixel `32768 t + j` of it. -/
theorem blk0_pix (c : Dev nD) (t : Fin cfg0.N) (j : Fin 32768) :
    blk0 m c t (blkPix j) = X0 m c (pix (tilePix (tl t) j)) := by
  obtain ⟨e0, e1, -, -⟩ := idx_in t
  show V m c main_arg0 (((cfg0.win 0).blk t).view.emb (blkPix j)) = V m c main_arg0 (pix (tilePix (tl t) j))
  congr 1
  funext a; apply Fin.ext
  have hj := j.isLt
  match a with
  | ⟨0, _⟩ => show win0_0.index t (0 : Fin 2) * 32 + 1 * (j.val / 1024) = (t.val * 32768 + j.val) / 1024; rw [e0]; omega
  | ⟨1, _⟩ => show win0_0.index t (1 : Fin 2) * 1024 + 1 * (j.val % 1024) = (t.val * 32768 + j.val) % 1024; rw [e1]; omega

/-- The same for the second mask. -/
theorem blk1_pix (c : Dev nD) (t : Fin cfg0.N) (j : Fin 32768) :
    blk1 m c t (blkPix j) = X1 m c (pix (tilePix (tl t) j)) := by
  obtain ⟨-, -, e0, e1⟩ := idx_in t
  show V m c main_arg1 (((cfg0.win 1).blk t).view.emb (blkPix j)) = V m c main_arg1 (pix (tilePix (tl t) j))
  congr 1
  funext a; apply Fin.ext
  have hj := j.isLt
  match a with
  | ⟨0, _⟩ => show win0_1.index t (0 : Fin 2) * 32 + 1 * (j.val / 1024) = (t.val * 32768 + j.val) / 1024; rw [e0]; omega
  | ⟨1, _⟩ => show win0_1.index t (1 : Fin 2) * 1024 + 1 * (j.val % 1024) = (t.val * 32768 + j.val) % 1024; rw [e1]; omega

/-- So a point's contribution to an entry of each accumulator is that tile's sum. -/
theorem contrib2 (c : Dev nD) (t : Fin cfg0.N) (p q : Fin 64) :
    ∑ j : Fin 32768, hot (blk0 m c t (blkPix j)) p * hot (blk1 m c t (blkPix j)) q = tileInter (X0 m c) (X1 m c) (tl t) p q :=
  Finset.sum_congr rfl fun j _ => by rw [blk0_pix, blk1_pix]
theorem contrib3 (c : Dev nD) (t : Fin cfg0.N) (p : Fin 64) :
    ∑ j : Fin 32768, hot (blk0 m c t (blkPix j)) p = tileArea (X0 m c) (tl t) p :=
  Finset.sum_congr rfl fun j _ => by rw [blk0_pix]
theorem contrib4 (c : Dev nD) (t : Fin cfg0.N) (q : Fin 64) :
    ∑ j : Fin 32768, hot (blk1 m c t (blkPix j)) q = tileArea (X1 m c) (tl t) q :=
  Finset.sum_congr rfl fun j _ => by rw [blk1_pix]

/-- The sixteen tile sums of half h, per entry. -/
def T2 (c : Dev nD) (h : Fin 2) (p q : Fin 64) : Fin 16 → EReal := fun k => tileInter (X0 m c) (X1 m c) (tileOf h k) p q
def T3 (c : Dev nD) (h : Fin 2) (p : Fin 64) : Fin 16 → EReal := fun k => tileArea (X0 m c) (tileOf h k) p
def T4 (c : Dev nD) (h : Fin 2) (q : Fin 64) : Fin 16 → EReal := fun k => tileArea (X1 m c) (tileOf h k) q

/-- `outsAt0` depends on the position only. -/
theorem outsAt0_congr (c : Dev nD) {n n' : ℕ} (e : n = n') (h : n < cfg0.N) (h' : n' < cfg0.N) :
    outsAt0 m c n h = outsAt0 m c n' h' := by subst e; rfl

set_option maxRecDepth 200000 in
/-- THE RUNNING SUMS: after tile r of half h each accumulator entry is the sum of that half's tiles 0 … r. -/
theorem inv (c : Dev nD) (h : Fin 2) : ∀ (r : ℕ) (hr : r < 16),
    (∀ p q : Fin 64, (outsAt0 m c (h.val * 16 + r) (pt_lt h r hr)).1 (ix3 (0 : Fin 1) p q) = upTo (T2 m c h p q) r)
    ∧ (∀ p : Fin 64, (outsAt0 m c (h.val * 16 + r) (pt_lt h r hr)).2.1 (ix3 (0 : Fin 1) p (0 : Fin 1)) = upTo (T3 m c h p) r)
    ∧ (∀ q : Fin 64, (outsAt0 m c (h.val * 16 + r) (pt_lt h r hr)).2.2 (ix3 (0 : Fin 1) q (0 : Fin 1)) = upTo (T4 m c h q) r)
  | 0, hr => by
    have hA : (⟨h.val * 16 + 0, pt_lt h 0 hr⟩ : Fin cfg0.N).val % 16 = 0 := by dsimp only; omega
    have e := outsAt0_A m c ⟨h.val * 16 + 0, pt_lt h 0 hr⟩ hA
    dsimp only at e
    have htl : tl ⟨h.val * 16 + 0, pt_lt h 0 hr⟩ = tileOf h 0 := Fin.ext (by simp [tl, tileOf])
    refine ⟨fun p q => ?_, fun p => ?_, fun q => ?_⟩
    · rw [e]; dsimp only; rw [piece_A_2]
      refine (pay_inter (blk0 m c ⟨h.val * 16 + 0, pt_lt h 0 hr⟩) (blk1 m c ⟨h.val * 16 + 0, pt_lt h 0 hr⟩) (k0_pay3 (F := Ideal)) p q).trans ?_
      rw [pay_zero_inter, contrib2, htl]; exact upTo_zero (T2 m c h p q)
    · rw [e]; dsimp only; rw [piece_A_3]
      refine (pay_areaP (blk0 m c ⟨h.val * 16 + 0, pt_lt h 0 hr⟩) (k0_pay4 (F := Ideal)) p).trans ?_
      rw [pay_zero_areaP, contrib3, htl]; exact upTo_zero (T3 m c h p)
    · rw [e]; dsimp only; rw [piece_A_4]
      refine (pay_areaT (blk1 m c ⟨h.val * 16 + 0, pt_lt h 0 hr⟩) (k0_pay5 (F := Ideal)) q).trans ?_
      rw [pay_zero_areaT, contrib4, htl]; exact upTo_zero (T4 m c h q)
  | r + 1, hr => by
    obtain ⟨i2, i3, i4⟩ := inv c h r (by omega)
    have hB : ¬(⟨h.val * 16 + (r + 1), pt_lt h (r + 1) hr⟩ : Fin cfg0.N).val % 16 = 0 := by dsimp only; omega
    have e := outsAt0_B m c ⟨h.val * 16 + (r + 1), pt_lt h (r + 1) hr⟩ hB
    dsimp only at e
    have htl : tl ⟨h.val * 16 + (r + 1), pt_lt h (r + 1) hr⟩ = tileOf h ⟨r + 1, hr⟩ := Fin.ext (by simp [tl, tileOf])
    have hprev := outsAt0_congr m c (show h.val * 16 + (r + 1) - 1 = h.val * 16 + r by omega)
      (Nat.lt_of_le_of_lt (Nat.sub_le _ _) (pt_lt h (r + 1) hr)) (pt_lt h r (by omega))
    refine ⟨fun p q => ?_, fun p => ?_, fun q => ?_⟩
    · rw [e]; dsimp only; rw [piece_B_2]
      refine (pay_inter (blk0 m c ⟨h.val * 16 + (r + 1), pt_lt h (r + 1) hr⟩) (blk1 m c ⟨h.val * 16 + (r + 1), pt_lt h (r + 1) hr⟩) _ p q).trans ?_
      rw [hprev, i2 p q, contrib2, htl]; exact upTo_succ (T2 m c h p q) r hr
    · rw [e]; dsimp only; rw [piece_B_3]
      refine (pay_areaP (blk0 m c ⟨h.val * 16 + (r + 1), pt_lt h (r + 1) hr⟩) _ p).trans ?_
      rw [hprev, i3 p, contrib3, htl]; exact upTo_succ (T3 m c h p) r hr
    · rw [e]; dsimp only; rw [piece_B_4]
      refine (pay_areaT (blk1 m c ⟨h.val * 16 + (r + 1), pt_lt h (r + 1) hr⟩) _ q).trans ?_
      rw [hprev, i4 q, contrib4, htl]; exact upTo_succ (T4 m c h q) r hr

end Cert.KernelIdeal.KV

end
-- ==== Proof.Tail.lean ====
/-
  What both programs do with the intersection table and the two area vectors: the pairwise-IoU loss.

  union = area_p[:, None] + area_t[None, :] - inter;  iou = union > 0 ? inter / max(union, 1) : 0;
  a label is present when its area is positive;  the loss sums `1 - max iou` over the present labels of either mask
  (row maxima for the first mask, column maxima for the second) and divides by the number of present labels
  (or is 0 when there is none). Stated once, for any float family, as a function of the three inputs; the kernel's host
  operations after its two-halves sums and the reference's operations after its einsum are both this function.
-/
import proofs.«107126_j81801947120084_1_alg».proof.Proof.Gen.KernelIdeal

noncomputable section

namespace Cert.KernelIdeal.Tl

open Cert.KernelIdeal Idealize.ShloMosaic
open Cert.KernelIdeal.Facts₀

variable {F : FTy → Type} [FloatOps F]

/-- area_p down the rows plus area_t along the columns, less the intersections. -/
def tUnion (inter : FVec F S64x64 .f32) (ap at_ : FVec F S64 .f32) : FVec F S64x64 .f32 :=
  subf (addf (broadcastInDim S64x64 ![0, 1] bcast_S64x1_S64x64_0_1 (broadcastInDim S64x1 ![0] bcast_S64_S64x1_0 ap))
             (broadcastInDim S64x64 ![0, 1] bcast_S1x64_S64x64_0_1 (broadcastInDim S1x64 ![1] bcast_S64_S1x64_1 at_))) inter

/-- intersection over union where the union is positive, else 0. -/
def tIou (inter : FVec F S64x64 .f32) (ap at_ : FVec F S64 .f32) : FVec F S64x64 .f32 :=
  select (cmpf (F := F) .ogt (tUnion inter ap at_) (broadcastInDim S64x64 ![] bcast_S_S64x64 (constant (F := F) S_ .f32 0x00000000#32)))
    (Host.divf inter (maximumf (tUnion inter ap at_) (broadcastInDim S64x64 ![] bcast_S_S64x64 (constant (F := F) S_ .f32 0x3F800000#32))))
    (broadcastInDim S64x64 ![] bcast_S_S64x64 (id (constant (F := F) S_ .f32 0x00000000#32)))

/-- "this label's area is positive". -/
def tPres (a : FVec F S64 .f32) : IVec S64 1 :=
  cmpf (F := F) .ogt a (broadcastInDim S64 ![] bcast_S_S64 (constant (F := F) S_ .f32 0x00000000#32))

/-- the sum over the present labels of `1 - best`. -/
def tLoss (pres : IVec S64 1) (best : FVec F S64 .f32) : FVec F S_ .f32 :=
  Host.reduceAdd
    (select pres (subf (broadcastInDim S64 ![] bcast_S_S64 (constant (F := F) S_ .f32 0x3F800000#32)) best)
      (broadcastInDim S64 ![] bcast_S_S64 (id (constant (F := F) S_ .f32 0x00000000#32))))
    (constant (F := F) S_ .f32 0x00000000#32) reducesTo_S64_S_d0 h_S_

/-- how many labels are present. -/
def tCount (pres : IVec S64 1) : FVec F S_ .f32 :=
  Host.reduceAdd (uitofp (F := F) .f32 pres) (constant (F := F) S_ .f32 0x00000000#32) reducesTo_S64_S_d0 h_S_

/-- the number of present labels of both masks. -/
def tNum (ap at_ : FVec F S64 .f32) : FVec F S_ .f32 :=
  addf (tCount (tPres ap)) (tCount (tPres at_))

/-- The loss as a function of the intersection table and the two area vectors. -/
def tail (inter : FVec F S64x64 .f32) (ap at_ : FVec F S64 .f32) : FVec F S_ .f32 :=
  select (cmpf (F := F) .ogt (tNum ap at_) (constant (F := F) S_ .f32 0x00000000#32))
    (Host.divf
      (addf
        (tLoss (tPres ap) (Host.reduce FloatOps.maximumf (tIou inter ap at_) (constant (F := F) S_ .f32 0xFF800000#32) reducesTo_S64x64_S64_d1 h_S_))
        (tLoss (tPres at_) (Host.reduce FloatOps.maximumf (tIou inter ap at_) (constant (F := F) S_ .f32 0xFF800000#32) reducesTo_S64x64_S64_d0 h_S_)))
      (maximumf (tNum ap at_) (constant (F := F) S_ .f32 0x3F800000#32)))
    (id (constant (F := F) S_ .f32 0x00000000#32))

end Cert.KernelIdeal.Tl

end
-- ==== Proof.KernelIdeal.TailValue.lean ====
/-
  The kernel's host operations after its region, read as the shared loss function.

  After the region the three accumulators hold one 64x64 table and two 64x1 columns per half of the pixel rows. The
  host operations first add the two halves of each (and drop the unit axis of the two columns), which gives the
  intersection table and the two area vectors; the 54 operations that follow are the pairwise-IoU loss of those three,
  the same function the reference applies to its own sums. Here the fold of the 69 operations over ANY buffer contents
  is read at the result buffer as that function of the three sums, and the two argument buffers are seen to be left
  as they were (no operation writes them).
-/
import proofs.«107126_j81801947120084_1_alg».proof.Proof.KernelIdeal.FrameBase
import proofs.«107126_j81801947120084_1_alg».proof.Proof.Tail
import Idealize.ShloMosaic.Lib.StableHlo.Run

set_option maxRecDepth 16384

noncomputable section

namespace Cert.KernelIdeal.TailValue

open Cert.KernelIdeal Cert.KernelIdeal.Gen Cert.KernelIdeal.Fr
open Idealize.ShloMosaic Idealize.ShloMosaic.StableHlo

variable {F : FTy → Type} [FloatOps F]

/-- the intersection table: the two halves added -/
def interOf (a2 : (⟨S2x64x64, .f32⟩ : BufTy).Contents (Elt F)) : FVec F S64x64 .f32 :=
  Host.reduceAdd a2 (constant (F := F) S_ .f32 0x00000000#32) reducesTo_S2x64x64_S64x64_d0 h_S_

/-- an area vector: the two halves added, the unit axis dropped -/
def areaOf (a : (⟨S2x64x1, .f32⟩ : BufTy).Contents (Elt F)) : FVec F S64 .f32 :=
  shapeCast S64 (Host.reduceAdd a (constant (F := F) S_ .f32 0x00000000#32) reducesTo_S2x64x1_S64x1_d0 h_S_) shapeCasts_S64x1_S64

/-- From any buffer contents, the result buffer ends at the loss of the three two-halves sums. -/
theorem tail_result (W : Valuation τ sig (Elt F)) :
    StableHlo.after (tailOps (F := F)).flatten W (Proc.devRef .tc main_v41)
      = Cert.KernelIdeal.Tl.tail (interOf (W (Proc.devRef .tc main_v0_0))) (areaOf (W (Proc.devRef .tc main_v0_1)))
          (areaOf (W (Proc.devRef .tc main_v0_2))) := by
  -- the eight stretches as one literal list of 69 operations
  simp only [tailOps, hostOps1, hostOps1_1, hostOps1_2, hostOps1_3, hostOps1_4, hostOps1_5, hostOps1_6, hostOps1_7,
    List.flatten_cons, List.flatten_nil, List.append_nil, List.cons_append, List.nil_append]
  -- each buffer read back as the value its operation computed; what is left is the loss function unfolded
  after_results_simp
  rfl

/-- No operation after the region writes one of the region's five arrays; the first argument is array 0. -/
theorem tail_keeps_arg0 (W : Valuation τ sig (Elt F)) :
    StableHlo.after (tailOps (F := F)).flatten W (Proc.devRef .tc main_arg0) = W (Proc.devRef .tc main_arg0) :=
  StableHlo.after_of_forall_not_mem _ W fun op hop => by
    obtain ⟨ops, hops, hop'⟩ := List.mem_flatten.mp hop
    exact tail_keeps ops hops op hop' 0

/-- The second argument is array 1. -/
theorem tail_keeps_arg1 (W : Valuation τ sig (Elt F)) :
    StableHlo.after (tailOps (F := F)).flatten W (Proc.devRef .tc main_arg1) = W (Proc.devRef .tc main_arg1) :=
  StableHlo.after_of_forall_not_mem _ W fun op hop => by
    obtain ⟨ops, hops, hop'⟩ := List.mem_flatten.mp hop
    exact tail_keeps ops hops op hop' 1

end Cert.KernelIdeal.TailValue

end
-- ==== Proof.KernelIdeal.Value.lean ====
/-
  The kernel's three result arrays and its loss, at the ideal instance.

  Each output window's block index is (h, 0, 0) with h the half the point lies in, and the block is written back after
  tile 15 of that half. So block h of the intersection array ends at the sum over that half's sixteen tiles of the tile's
  indicator products, and block h of each area array at the sum of the tile's indicators: the two write-backs cover the
  arrays. The host operations that follow see these arrays and nothing else of the region, and compute the loss of
  their two-halves sums.
-/
import proofs.«107126_j81801947120084_1_alg».proof.Proof.KernelIdeal.Accum
import proofs.«107126_j81801947120084_1_alg».proof.Proof.KernelIdeal.TailValue

set_option maxRecDepth 16384

noncomputable section

open scoped BigOperators

namespace Cert.KernelIdeal.KV

open Cert.KernelIdeal Cert.KernelIdeal.Gen Cert.KernelIdeal.Fr Cert.KernelIdeal.PayValue Cert.KernelIdeal.TailValue Cert.Spec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The output windows' block index at point t is (t / 16, 0, 0). -/
theorem idx_out : ∀ t : Fin cfg0.N,
    (win0_2.index t (0 : Fin 3) = t.val / 16 ∧ win0_2.index t (1 : Fin 3) = 0 ∧ win0_2.index t (2 : Fin 3) = 0)
    ∧ (win0_3.index t (0 : Fin 3) = t.val / 16 ∧ win0_3.index t (1 : Fin 3) = 0 ∧ win0_3.index t (2 : Fin 3) = 0)
    ∧ (win0_4.index t (0 : Fin 3) = t.val / 16 ∧ win0_4.index t (1 : Fin 3) = 0 ∧ win0_4.index t (2 : Fin 3) = 0) :=
  (by decide +kernel : ∀ t : Fin grid0.N, _)

/-- What the three arrays end holding: per half, the sum over its sixteen tiles. -/
def G2 (c : Dev nD) : S2x64x64.Idx → EReal := fun i => ∑ k : Fin 16, T2 m c (i 0) (i 1) (i 2) k
def G3 (c : Dev nD) : S2x64x1.Idx → EReal := fun i => ∑ k : Fin 16, T3 m c (i 0) (i 1) k
def G4 (c : Dev nD) : S2x64x1.Idx → EReal := fun i => ∑ k : Fin 16, T4 m c (i 0) (i 1) k

/-- A write-back point is tile 15 of its half. -/
theorem half_of (t : Fin cfg0.N) (h15 : t.val % 16 = 15) : ∃ h : Fin 2, t.val = h.val * 16 + 15 := by
  have hlt : t.val < 32 := lt_of_lt_of_eq t.isLt N_0
  exact ⟨⟨t.val / 16, by omega⟩, by dsimp only; omega⟩

/-! ## The intersection array -/

theorem flushed2 (c : Dev nD) (t : Fin cfg0.N) (hf : (cfg0.win 2).flush t = true) :
    (dats m 0 c).flushed 2 t = ((cfg0.win 2).blk t).view.read (Elt Ideal) (G2 m c) := by
  obtain ⟨h, hh⟩ := half_of t ((flush0_2 t).mp hf)
  obtain ⟨⟨e0, e1, e2⟩, -, -⟩ := idx_out t
  show (cfg0.win 2).cut (grid0.coords t) ((dats m 0 c).after 2 t) = _
  rw [after0_2]
  funext y
  obtain ⟨a, p, q, rfl⟩ : ∃ (a : Fin 1) (p q : Fin 64), y = ix3 a p q := ⟨y 0, y 1, y 2, eq_ix3 y⟩
  obtain rfl : a = 0 := Subsingleton.elim _ _
  have hemb : ((cfg0.win 2).blk t).view.emb (ix3 (0 : Fin 1) p q) = (ix3 h p q : S2x64x64.Idx) := by
    funext a; apply Fin.ext
    have := h.isLt
    match a with
    | ⟨0, _⟩ => show win0_2.index t (0 : Fin 3) * 1 + 1 * 0 = h.val; rw [e0]; omega
    | ⟨1, _⟩ => show win0_2.index t (1 : Fin 3) * 64 + 1 * p.val = p.val; rw [e1]; omega
    | ⟨2, _⟩ => show win0_2.index t (2 : Fin 3) * 64 + 1 * q.val = q.val; rw [e2]; omega
  show (outsAt0 m c t.val t.isLt).1 (ix3 (0 : Fin 1) p q) = G2 m c (((cfg0.win 2).blk t).view.emb (ix3 (0 : Fin 1) p q))
  rw [hemb, outsAt0_congr m c hh t.isLt (pt_lt h 15 (by omega)), (inv m c h 15 (by omega)).1 p q, upTo_full]
  rfl

theorem mem_blk2 (t : Fin cfg0.N) (i : S2x64x64.Idx) :
    i ∈ ((cfg0.win 2).blk t).view.set ↔ ∀ a : Fin 3, win0_2.index t a * S1x64x64.size a ≤ (i a).val ∧ (i a).val < win0_2.index t a * S1x64x64.size a + S1x64x64.size a := by
  show i ∈ ((View.whole main_v0_0).slice (win0_2.rect t)).set ↔ _
  rw [View.set_slice_whole, Rect.mem_set_unit]
  exact Iff.rfl

theorem cover2 (i : S2x64x64.Idx) : ∃ t : Fin cfg0.N, (cfg0.win 2).flush t = true ∧ i ∈ ((cfg0.win 2).blk t).view.set := by
  have h0 : (i 0).val < 2 := (i 0).isLt
  have h1 : (i 1).val < 64 := (i 1).isLt
  have h2 : (i 2).val < 64 := (i 2).isLt
  refine ⟨⟨(i 0).val * 16 + 15, pt_lt ⟨(i 0).val, h0⟩ 15 (by omega)⟩, (flush0_2 _).mpr (by dsimp only; omega), ?_⟩
  obtain ⟨⟨e0, e1, e2⟩, -, -⟩ := idx_out ⟨(i 0).val * 16 + 15, pt_lt ⟨(i 0).val, h0⟩ 15 (by omega)⟩
  dsimp only at e0
  rw [mem_blk2]
  intro a
  match a with
  | ⟨0, _⟩ => show win0_2.index _ (0 : Fin 3) * 1 ≤ (i 0).val ∧ (i 0).val < win0_2.index _ (0 : Fin 3) * 1 + 1; rw [e0]; omega
  | ⟨1, _⟩ => show win0_2.index _ (1 : Fin 3) * 64 ≤ (i 1).val ∧ (i 1).val < win0_2.index _ (1 : Fin 3) * 64 + 64; rw [e1]; omega
  | ⟨2, _⟩ => show win0_2.index _ (2 : Fin 3) * 64 ≤ (i 2).val ∧ (i 2).val < win0_2.index _ (2 : Fin 3) * 64 + 64; rw [e2]; omega

theorem final2 (c : Dev nD) : (dats m 0 c).arrAt 2 cfg0.N = G2 m c :=
  (dats m 0 c).arrAt_eq_of_cover 2 (G2 m c) (flushed2 m c) cover2

/-! ## The first mask's area array -/

theorem flushed3 (c : Dev nD) (t : Fin cfg0.N) (hf : (cfg0.win 3).flush t = true) :
    (dats m 0 c).flushed 3 t = ((cfg0.win 3).blk t).view.read (Elt Ideal) (G3 m c) := by
  obtain ⟨h, hh⟩ := half_of t ((flush0_3 t).mp hf)
  obtain ⟨e0, e1, e2⟩ := (idx_out t).2.1
  show (cfg0.win 3).cut (grid0.coords t) ((dats m 0 c).after 3 t) = _
  rw [after0_3]
  funext y
  obtain ⟨a, p, b, rfl⟩ : ∃ (a : Fin 1) (p : Fin 64) (b : Fin 1), y = ix3 a p b := ⟨y 0, y 1, y 2, eq_ix3 y⟩
  obtain rfl : a = 0 := Subsingleton.elim _ _
  obtain rfl : b = 0 := Subsingleton.elim _ _
  have hemb : ((cfg0.win 3).blk t).view.emb (ix3 (0 : Fin 1) p (0 : Fin 1)) = (ix3 h p (0 : Fin 1) : S2x64x1.Idx) := by
    funext a; apply Fin.ext
    have := h.isLt
    match a with
    | ⟨0, _⟩ => show win0_3.index t (0 : Fin 3) * 1 + 1 * 0 = h.val; rw [e0]; omega
    | ⟨1, _⟩ => show win0_3.index t (1 : Fin 3) * 64 + 1 * p.val = p.val; rw [e1]; omega
    | ⟨2, _⟩ => show win0_3.index t (2 : Fin 3) * 1 + 1 * 0 = 0; rw [e2]
  show (outsAt0 m c t.val t.isLt).2.1 (ix3 (0 : Fin 1) p (0 : Fin 1)) = G3 m c (((cfg0.win 3).blk t).view.emb (ix3 (0 : Fin 1) p (0 : Fin 1)))
  rw [hemb, outsAt0_congr m c hh t.isLt (pt_lt h 15 (by omega)), (inv m c h 15 (by omega)).2.1 p, upTo_full]
  rfl

theorem mem_blk3 (t : Fin cfg0.N) (i : S2x64x1.Idx) :
    i ∈ ((cfg0.win 3).blk t).view.set ↔ ∀ a : Fin 3, win0_3.index t a * S1x64x1.size a ≤ (i a).val ∧ (i a).val < win0_3.index t a * S1x64x1.size a + S1x64x1.size a := by
  show i ∈ ((View.whole main_v0_1).slice (win0_3.rect t)).set ↔ _
  rw [View.set_slice_whole, Rect.mem_set_unit]
  exact Iff.rfl

theorem cover3 (i : S2x64x1.Idx) : ∃ t : Fin cfg0.N, (cfg0.win 3).flush t = true ∧ i ∈ ((cfg0.win 3).blk t).view.set := by
  have h0 : (i 0).val < 2 := (i 0).isLt
  have h1 : (i 1).val < 64 := (i 1).isLt
  have h2 : (i 2).val < 1 := (i 2).isLt
  refine ⟨⟨(i 0).val * 16 + 15, pt_lt ⟨(i 0).val, h0⟩ 15 (by omega)⟩, (flush0_3 _).mpr (by dsimp only; omega), ?_⟩
  obtain ⟨e0, e1, e2⟩ := (idx_out ⟨(i 0).val * 16 + 15, pt_lt ⟨(i 0).val, h0⟩ 15 (by omega)⟩).2.1
  dsimp only at e0
  rw [mem_blk3]
  intro a
  match a with
  | ⟨0, _⟩ => show win0_3.index _ (0 : Fin 3) * 1 ≤ (i 0).val ∧ (i 0).val < win0_3.index _ (0 : Fin 3) * 1 + 1; rw [e0]; omega
  | ⟨1, _⟩ => show win0_3.index _ (1 : Fin 3) * 64 ≤ (i 1).val ∧ (i 1).val < win0_3.index _ (1 : Fin 3) * 64 + 64; rw [e1]; omega
  | ⟨2, _⟩ => show win0_3.index _ (2 : Fin 3) * 1 ≤ (i 2).val ∧ (i 2).val < win0_3.index _ (2 : Fin 3) * 1 + 1; rw [e2]; omega

theorem final3 (c : Dev nD) : (dats m 0 c).arrAt 3 cfg0.N = G3 m c :=
  (dats m 0 c).arrAt_eq_of_cover 3 (G3 m c) (flushed3 m c) cover3

/-! ## The second mask's area array -/

theorem flushed4 (c : Dev nD) (t : Fin cfg0.N) (hf : (cfg0.win 4).flush t = true) :
    (dats m 0 c).flushed 4 t = ((cfg0.win 4).blk t).view.read (Elt Ideal) (G4 m c) := by
  obtain ⟨h, hh⟩ := half_of t ((flush0_4 t).mp hf)
  obtain ⟨e0, e1, e2⟩ := (idx_out t).2.2
  show (cfg0.win 4).cut (grid0.coords t) ((dats m 0 c).after 4 t) = _
  rw [after0_4]
  funext y
  obtain ⟨a, p, b, rfl⟩ : ∃ (a : Fin 1) (p : Fin 64) (b : Fin 1), y = ix3 a p b := ⟨y 0, y 1, y 2, eq_ix3 y⟩
  obtain rfl : a = 0 := Subsingleton.elim _ _
  obtain rfl : b = 0 := Subsingleton.elim _ _
  have hemb : ((cfg0.win 4).blk t).view.emb (ix3 (0 : Fin 1) p (0 : Fin 1)) = (ix3 h p (0 : Fin 1) : S2x64x1.Idx) := by
    funext a; apply Fin.ext
    have := h.isLt
    match a with
    | ⟨0, _⟩ => show win0_4.index t (0 : Fin 3) * 1 + 1 * 0 = h.val; rw [e0]; omega
    | ⟨1, _⟩ => show win0_4.index t (1 : Fin 3) * 64 + 1 * p.val = p.val; rw [e1]; omega
    | ⟨2, _⟩ => show win0_4.index t (2 : Fin 3) * 1 + 1 * 0 = 0; rw [e2]
  show (outsAt0 m c t.val t.isLt).2.2 (ix3 (0 : Fin 1) p (0 : Fin 1)) = G4 m c (((cfg0.win 4).blk t).view.emb (ix3 (0 : Fin 1) p (0 : Fin 1)))
  rw [hemb, outsAt0_congr m c hh t.isLt (pt_lt h 15 (by omega)), (inv m c h 15 (by omega)).2.2 p, upTo_full]
  rfl

theorem mem_blk4 (t : Fin cfg0.N) (i : S2x64x1.Idx) :
    i ∈ ((cfg0.win 4).blk t).view.set ↔ ∀ a : Fin 3, win0_4.index t a * S1x64x1.size a ≤ (i a).val ∧ (i a).val < win0_4.index t a * S1x64x1.size a + S1x64x1.size a := by
  show i ∈ ((View.whole main_v0_2).slice (win0_4.rect t)).set ↔ _
  rw [View.set_slice_whole, Rect.mem_set_unit]
  exact Iff.rfl

theorem cover4 (i : S2x64x1.Idx) : ∃ t : Fin cfg0.N, (cfg0.win 4).flush t = true ∧ i ∈ ((cfg0.win 4).blk t).view.set := by
  have h0 : (i 0).val < 2 := (i 0).isLt
  have h1 : (i 1).val < 64 := (i 1).isLt
  have h2 : (i 2).val < 1 := (i 2).isLt
  refine ⟨⟨(i 0).val * 16 + 15, pt_lt ⟨(i 0).val, h0⟩ 15 (by omega)⟩, (flush0_4 _).mpr (by dsimp only; omega), ?_⟩
  obtain ⟨e0, e1, e2⟩ := (idx_out ⟨(i 0).val * 16 + 15, pt_lt ⟨(i 0).val, h0⟩ 15 (by omega)⟩).2.2
  dsimp only at e0
  rw [mem_blk4]
  intro a
  match a with
  | ⟨0, _⟩ => show win0_4.index _ (0 : Fin 3) * 1 ≤ (i 0).val ∧ (i 0).val < win0_4.index _ (0 : Fin 3) * 1 + 1; rw [e0]; omega
  | ⟨1, _⟩ => show win0_4.index _ (1 : Fin 3) * 64 ≤ (i 1).val ∧ (i 1).val < win0_4.index _ (1 : Fin 3) * 64 + 64; rw [e1]; omega
  | ⟨2, _⟩ => show win0_4.index _ (2 : Fin 3) * 1 ≤ (i 2).val ∧ (i 2).val < win0_4.index _ (2 : Fin 3) * 1 + 1; rw [e2]; omega

theorem final4 (c : Dev nD) : (dats m 0 c).arrAt 4 cfg0.N = G4 m c :=
  (dats m 0 c).arrAt_eq_of_cover 4 (G4 m c) (flushed4 m c) cover4

/-! ## The run, read -/

/-- What the host operations after the region start from: the region's arrays at their final contents, every other
    buffer as the region found it. -/
abbrev W (c : Dev nD) : Valuation τ sig (Elt Ideal) :=
  Pipeline.withArrays spec0 c (V0 m c) fun w => (dats m 0 c).arrAt w cfg0.N

theorem W_v0_0 (c : Dev nD) : W m c (Proc.devRef .tc main_v0_0) = G2 m c :=
  (Pipeline.withArrays_arr spec0 launch0.win.arr_inj c _ _ 2).trans (final2 m c)
theorem W_v0_1 (c : Dev nD) : W m c (Proc.devRef .tc main_v0_1) = G3 m c :=
  (Pipeline.withArrays_arr spec0 launch0.win.arr_inj c _ _ 3).trans (final3 m c)
theorem W_v0_2 (c : Dev nD) : W m c (Proc.devRef .tc main_v0_2) = G4 m c :=
  (Pipeline.withArrays_arr spec0 launch0.win.arr_inj c _ _ 4).trans (final4 m c)

/-- The kernel's loss: the shared loss function of the two-halves sums of the three arrays. -/
def result (c : Dev nD) : Buf (Elt Ideal) ((c.tc : Thread nD τ).loc main_v41) :=
  Cert.KernelIdeal.Tl.tail (interOf (F := Ideal) (G2 m c)) (areaOf (F := Ideal) (G3 m c)) (areaOf (F := Ideal) (G4 m c))

/-- Every weakly fair execution of @main terminates with the result buffer at that loss and the two masks unchanged. -/
theorem run : θ_run defs (onTc (τ := τ) (main (F := Ideal))) ⟨m, fun _ => 0, ρ⟩ fun r => ∀ c : Dev nD,
      r.2.mem ((c.tc : Thread nD τ).loc main_v41) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v41 (Pipeline.mem_restRefs_of main_v41 (by decide) (by decide))).trans
        ((tail_result (F := Ideal) (W m c)).trans (by unfold result; rw [W_v0_0, W_v0_1, W_v0_2])),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c)))⟩)
    (run_main m ρ)

end Cert.KernelIdeal.KV

end
-- ==== Proof.KernelIdeal.HalvesValue.lean ====
/-
  The two-halves sums read at an index, at the ideal values.

  At the ideal values the host's sum over an axis is the initial value plus the sum of the operand's entries along
  that axis. The axis here is the half of the pixel rows (two entries) and the initial value is zero, so an entry of
  the intersection table is the sum of the two halves' entries at the same pair of labels, and an entry of an area
  vector is the sum of the two halves' entries at the same label (the column's unit axis read at 0: element p of
  the vector is element (p, 0) of the column, both at row-major position p).
-/
import proofs.«107126_j81801947120084_1_alg».proof.Proof.KernelIdeal.TailValue
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.TailValue

open Cert.KernelIdeal Cert.KernelIdeal.Gen Cert.KernelIdeal.Fr
open Idealize.ShloMosaic Idealize.ShloMosaic.StableHlo Idealize.ShloMosaic.ValueIdx

/-- An entry of the intersection table is the sum of the two halves' entries at the same pair of labels. -/
theorem interOf_apply (a2 : (⟨S2x64x64, .f32⟩ : BufTy).Contents (Elt Ideal)) (p q : Fin 64) :
    interOf (F := Ideal) a2 (ix2 p q) = a2 (ix3 (0 : Fin 2) p q) + a2 (ix3 (1 : Fin 2) p q) := by
  unfold interOf
  simp only [Host.reduceAdd, Ideal.hostReduceAdd_def]
  rw [Ideal.hostReduceAdd_single reducesTo_S2x64x64_S64x64_d0 (by decide)]
  -- the initial value is zero
  have h0 : constant (F := Ideal) S_ .f32 0x00000000#32 (Shape.Idx.first h_S_) = (0 : EReal) := Ideal.ofBits_zero_f32
  rw [h0, zero_add]
  -- the summed axis has the two halves
  refine Eq.trans (Fin.sum_univ_two _) ?_
  -- the index put back on the summed axis is (half, p, q)
  congr 1 <;> exact congrArg a2 (funext fun d => Fin.ext (by match d with | ⟨0, _⟩ => rfl | ⟨1, _⟩ => rfl | ⟨2, _⟩ => rfl))

/-- An entry of a summed column is the sum of the two halves' entries at the same label. -/
theorem colOf_apply (a : (⟨S2x64x1, .f32⟩ : BufTy).Contents (Elt Ideal)) (p : Fin 64) (u : Fin 1) :
    Host.reduceAdd (F := Ideal) a (constant (F := Ideal) S_ .f32 0x00000000#32) reducesTo_S2x64x1_S64x1_d0 h_S_ (ix2 p u)
      = a (ix3 (0 : Fin 2) p u) + a (ix3 (1 : Fin 2) p u) := by
  simp only [Host.reduceAdd, Ideal.hostReduceAdd_def]
  rw [Ideal.hostReduceAdd_single reducesTo_S2x64x1_S64x1_d0 (by decide)]
  have h0 : constant (F := Ideal) S_ .f32 0x00000000#32 (Shape.Idx.first h_S_) = (0 : EReal) := Ideal.ofBits_zero_f32
  rw [h0, zero_add]
  refine Eq.trans (Fin.sum_univ_two _) ?_
  congr 1 <;> exact congrArg a (funext fun d => Fin.ext (by match d with | ⟨0, _⟩ => rfl | ⟨1, _⟩ => rfl | ⟨2, _⟩ => rfl))

/-- An entry of an area vector is the sum of the two halves' entries at the same label: element p of the vector is
    element (p, 0) of the summed column, both at row-major position p. -/
theorem areaOf_apply (a : (⟨S2x64x1, .f32⟩ : BufTy).Contents (Elt Ideal)) (p : Fin 64) :
    areaOf (F := Ideal) a (ix1 p) = a (ix3 (0 : Fin 2) p (0 : Fin 1)) + a (ix3 (1 : Fin 2) p (0 : Fin 1)) := by
  unfold areaOf
  rw [shapeCast_apply _ shapeCasts_S64x1_S64 (ix1 p) (ix2 p (0 : Fin 1)) (by
    rw [Shape.rowMajor_val_two, Shape.rowMajor_val_one]
    show p.val * 1 + 0 = p.val
    rw [Nat.mul_one, Nat.add_zero])]
  exact colOf_apply a p 0

end Cert.KernelIdeal.TailValue

end
-- ==== Proof.RefValue.lean ====
/-
  The reference side, read as the common vocabulary.

  The reference's intersection table is the sum over all 1048576 pixels of the product of two label indicators, and
  its two area vectors are the sums of one indicator; each indicator element is "the pixel word equals 1 + p" turned
  into 1 or 0. Here: that element is the indicator of the common vocabulary at the row-major pixel, so the table and
  the areas are the full-image sums; and everything the reference does after those three values is the loss function
  both sides share, for any float family.
-/
import proofs.«107126_j81801947120084_1_alg».proof.Proof.RefReadP
import proofs.«107126_j81801947120084_1_alg».proof.Proof.Spec
import proofs.«107126_j81801947120084_1_alg».proof.Proof.Tail

noncomputable section

open scoped BigOperators

namespace Cert.ReferenceIdeal.RefValue

open Cert.ReferenceIdeal Cert.ReferenceIdeal.ReadP Idealize.ShloMosaic Idealize.ShloMosaic.ValueIdx

/-- The label word the reference compares with, 1 + p, is the word p + 1. -/
theorem label_word (p : Fin 64) : IntOp.addi 1#32 (BitVec.ofNat 32 p.val) = BitVec.ofNat 32 (p.val + 1) := by
  show 1#32 + BitVec.ofNat 32 p.val = BitVec.ofNat 32 (p.val + 1)
  rw [BitVec.ofNat_add]
  exact BitVec.add_comm _ _

/-- The one-bit answer of "a = 1 + p", read as an unsigned number, is the indicator: 1 when equal, else 0. -/
theorem hot_of_cmp (a : BitVec 32) (p : Fin 64) :
    FloatOps.uitofp (F := Ideal) .f32 (IntOp.cmpi .eq a (IntOp.addi 1#32 (BitVec.ofNat 32 p.val))) = Cert.Spec.hot a p := by
  rw [label_word]
  show (((IntOp.cmpi .eq a (BitVec.ofNat 32 (p.val + 1))).toNat : ℝ) : EReal) = Cert.Spec.hot a p
  unfold Cert.Spec.hot IntOp.cmpi
  by_cases h : a = BitVec.ofNat 32 (p.val + 1)
  · rw [if_pos h]; simp [h]
  · rw [if_neg h]; simp [h]

/-- Row p, column n of the first mask's indicator rows: the indicator of label p + 1 at pixel n. -/
theorem ind0 (x0 : (⟨S1024x1024, .i32⟩ : BufTy).Contents (Elt Ideal)) (p : Fin 64) (n : Fin 1048576) :
    val_main_v9 (F := Ideal) x0 (ix2 p n) = Cert.Spec.hot (x0 (Cert.Spec.pix n)) p := by
  rw [val_main_v9_apply, val_main_v8_apply, val_main_v6_apply, val_main_v4_apply, val_main_v3_apply,
    val_main_v7_apply, val_main_v5_apply, val_main_v2_apply, val_main_v1_apply, val_main_v0_apply, val_main_c_apply]
  have hp : idx_main_v3 (idx_main_v4 (idx_main_v6 (ix2 p n))) = Cert.Spec.pix n :=
    funext fun a => by match a with | ⟨0, _⟩ => rfl | ⟨1, _⟩ => rfl
  rw [hp]
  exact hot_of_cmp (x0 (Cert.Spec.pix n)) p

/-- The same for the second mask's rows. -/
theorem ind1 (x1 : (⟨S1024x1024, .i32⟩ : BufTy).Contents (Elt Ideal)) (q : Fin 64) (n : Fin 1048576) :
    val_main_v16 (F := Ideal) x1 (ix2 q n) = Cert.Spec.hot (x1 (Cert.Spec.pix n)) q := by
  rw [val_main_v16_apply, val_main_v15_apply, val_main_v13_apply, val_main_v11_apply, val_main_v10_apply,
    val_main_v14_apply, val_main_v12_apply, val_main_v2_apply, val_main_v1_apply, val_main_v0_apply, val_main_c_apply]
  have hp : idx_main_v10 (idx_main_v11 (idx_main_v13 (ix2 q n))) = Cert.Spec.pix n :=
    funext fun a => by match a with | ⟨0, _⟩ => rfl | ⟨1, _⟩ => rfl
  rw [hp]
  exact hot_of_cmp (x1 (Cert.Spec.pix n)) q

/-- The reference's intersection table is the full-image intersection count. -/
theorem ref_inter (x0 x1 : (⟨S1024x1024, .i32⟩ : BufTy).Contents (Elt Ideal)) (p q : Fin 64) :
    val_main_v17 (F := Ideal) x0 x1 (ix2 p q) = Cert.Spec.fullInter x0 x1 p q := by
  rw [val_main_v17_apply]
  unfold Cert.Spec.fullInter
  refine Finset.sum_congr rfl fun k _ => ?_
  have hl : lidx_main_v17 (ix2 p q) k = ix2 p k :=
    funext fun a => by match a with | ⟨0, _⟩ => rfl | ⟨1, _⟩ => rfl
  have hr : ridx_main_v17 (ix2 p q) k = ix2 q k :=
    funext fun a => by match a with | ⟨0, _⟩ => rfl | ⟨1, _⟩ => rfl
  rw [hl, hr, ind0, ind1]

/-- The reference's first area vector is the full-image area of the first mask's labels. -/
theorem ref_areaP (x0 : (⟨S1024x1024, .i32⟩ : BufTy).Contents (Elt Ideal)) (p : Fin 64) :
    val_main_v18 (F := Ideal) x0 (ix1 p) = Cert.Spec.fullArea x0 p := by
  rw [val_main_v18_apply, val_main_cst_apply]
  show Ideal.ofBits .f32 0x00000000#32 + _ = _
  rw [Ideal.ofBits_zero_f32, zero_add]
  unfold Cert.Spec.fullArea
  refine Finset.sum_congr rfl fun k _ => ?_
  have hi : idx_main_v18 (ix1 p) k = ix2 p k :=
    funext fun a => by match a with | ⟨0, _⟩ => rfl | ⟨1, _⟩ => rfl
  rw [hi, ind0]

/-- The reference's second area vector is the full-image area of the second mask's labels. -/
theorem ref_areaT (x1 : (⟨S1024x1024, .i32⟩ : BufTy).Contents (Elt Ideal)) (q : Fin 64) :
    val_main_v19 (F := Ideal) x1 (ix1 q) = Cert.Spec.fullArea x1 q := by
  rw [val_main_v19_apply, val_main_cst_0_apply]
  show Ideal.ofBits .f32 0x00000000#32 + _ = _
  rw [Ideal.ofBits_zero_f32, zero_add]
  unfold Cert.Spec.fullArea
  refine Finset.sum_congr rfl fun k _ => ?_
  have hi : idx_main_v19 (ix1 q) k = ix2 q k :=
    funext fun a => by match a with | ⟨0, _⟩ => rfl | ⟨1, _⟩ => rfl
  rw [hi, ind1]

section Tail

variable {F : FTy → Type} [FloatOps F]

/-- After the table and the two area vectors, the reference's operations are the shared loss function of them. -/
theorem tail_eq (x0 x1 : (⟨S1024x1024, .i32⟩ : BufTy).Contents (Elt F)) :
    val_main_v55 (F := F) x0 x1
      = Cert.KernelIdeal.Tl.tail (val_main_v17 (F := F) x0 x1) (val_main_v18 (F := F) x0) (val_main_v19 (F := F) x1) := by
  rfl

/-- The reference's result is the shared loss function of its table and its two area vectors. -/
theorem ref_result (m : (ℓ : Loc nD τ sig) → Buf (Elt F) ℓ) (c : Dev nD) :
    Cert.ReferenceIdeal.ValueP.res_main_v55 (F := F) m c
      = Cert.KernelIdeal.Tl.tail (val_main_v17 (F := F) (m ((c.tc : Thread nD τ).loc main_arg0)) (m ((c.tc : Thread nD τ).loc main_arg1)))
          (val_main_v18 (F := F) (m ((c.tc : Thread nD τ).loc main_arg0))) (val_main_v19 (F := F) (m ((c.tc : Thread nD τ).loc main_arg1))) :=
  (val_main_v55_eq m c).trans (tail_eq _ _)

end Tail

end Cert.ReferenceIdeal.RefValue

end
-- ==== Proof.Bridge.lean ====
/-
  The two sides meet.

  The kernel's intersection table is, entry by entry, the first half's sum over its sixteen tiles plus the second
  half's; the reference's is the sum over all 1048576 pixels. Grouping the pixels by half and by tile makes them equal:
  only the order of a finite sum of extended reals changes (addition there is commutative and associative; no value
  need be finite). The same for the two area vectors. Both programs then apply the same loss function.
-/
import proofs.«107126_j81801947120084_1_alg».proof.Proof.KernelIdeal.Value
import proofs.«107126_j81801947120084_1_alg».proof.Proof.KernelIdeal.HalvesValue
import proofs.«107126_j81801947120084_1_alg».proof.Proof.RefValue

noncomputable section

open scoped BigOperators

namespace Cert.Bridge

open Cert.KernelIdeal Cert.KernelIdeal.Fr Cert.KernelIdeal.KV Cert.KernelIdeal.TailValue Cert.Spec
open Idealize.ShloMosaic Idealize.ShloMosaic.TcCoe Idealize.SL.Sem Idealize.ShloMosaic.ValueIdx

variable (m : (ℓ : Loc Cert.KernelIdeal.nD Cert.KernelIdeal.τ Cert.KernelIdeal.sig) → Buf (Elt Ideal) ℓ)

/-- The kernel's intersection table is the reference's. -/
theorem inter_eq (c : Dev Cert.KernelIdeal.nD) :
    interOf (F := Ideal) (G2 m c) = Cert.ReferenceIdeal.ReadP.val_main_v17 (F := Ideal) (X0 m c) (X1 m c) := by
  funext i
  obtain ⟨p, q, rfl⟩ : ∃ (p q : Fin 64), i = ix2 p q := ⟨i 0, i 1, eq_ix2 i⟩
  rw [interOf_apply, Cert.ReferenceIdeal.RefValue.ref_inter, fullInter_split, Fin.sum_univ_two]
  rfl

/-- The kernel's first area vector is the reference's. -/
theorem areaP_eq (c : Dev Cert.KernelIdeal.nD) :
    areaOf (F := Ideal) (G3 m c) = Cert.ReferenceIdeal.ReadP.val_main_v18 (F := Ideal) (X0 m c) := by
  funext i
  obtain ⟨p, rfl⟩ : ∃ (p : Fin 64), i = ix1 p := ⟨i 0, eq_ix1 i⟩
  rw [areaOf_apply, Cert.ReferenceIdeal.RefValue.ref_areaP, fullArea_split, Fin.sum_univ_two]
  rfl

/-- The kernel's second area vector is the reference's. -/
theorem areaT_eq (c : Dev Cert.KernelIdeal.nD) :
    areaOf (F := Ideal) (G4 m c) = Cert.ReferenceIdeal.ReadP.val_main_v19 (F := Ideal) (X1 m c) := by
  funext i
  obtain ⟨q, rfl⟩ : ∃ (q : Fin 64), i = ix1 q := ⟨i 0, eq_ix1 i⟩
  rw [areaOf_apply, Cert.ReferenceIdeal.RefValue.ref_areaT, fullArea_split, Fin.sum_univ_two]
  rfl

/-- So the kernel's loss is the reference's loss of the same two masks. -/
theorem result_eq (c : Dev Cert.KernelIdeal.nD) :
    result m c = Cert.KernelIdeal.Tl.tail (F := Ideal) (Cert.ReferenceIdeal.ReadP.val_main_v17 (F := Ideal) (X0 m c) (X1 m c))
      (Cert.ReferenceIdeal.ReadP.val_main_v18 (F := Ideal) (X0 m c)) (Cert.ReferenceIdeal.ReadP.val_main_v19 (F := Ideal) (X1 m c)) := by
  unfold result
  rw [inter_eq, areaP_eq, areaT_eq]

end Cert.Bridge

end
-- ==== Proof.lean ====
/-
  The pairwise-IoU instance-segmentation loss: a tiled kernel against its whole-image reference.

  Both programs take two 1024 × 1024 masks of instance labels (0 background, 1 … 64 instances). For each mask they
  form the 64 indicator rows "pixel n carries label p + 1"; from them the 64 × 64 table of intersection counts
  (the sum over pixels of the product of an indicator of the first mask and one of the second) and the two vectors of
  areas (the sum over pixels of an indicator); and from those three the loss: union = area_p + area_t − inter,
  iou = inter / max(union, 1) where the union is positive and 0 elsewhere, the loss the sum over the present labels of
  either mask of 1 − (best iou in its row, or column), divided by the number of present labels (0 when none).

  The reference sums over all 1048576 pixels at once. The kernel walks a 2 × 16 grid: half h of the image (512 rows),
  tile r of that half (32 rows, 32768 pixels); at tile 0 of a half it zeroes block h of its three accumulators, at every
  tile it adds the tile's indicator products (one matrix product of the two 64 × 32768 indicator tiles) and the tile's
  indicator row sums, and after tile 15 block h is written back; host operations then add the two halves and compute
  the loss. The indicators pass through bf16 on their way into the matrix unit, which changes nothing for exact values
  (the two ledger entries).

  frame_Kernel, frame_KernelIdeal: the region's run is the library's frame run for a region followed by host
    operations, over proof data that name the accumulators' contents point by point (Proof/Kernel/…, Proof/KernelIdeal/…:
    the body's two cases run symbolically, the case chosen by "tile index = 0" in closed form over the 32 points);
    the two masks are staged inputs, left as found.
  frame_ReferenceIdeal: the reference's run, its result dropped.
  preserves_Kernel_KernelIdeal: widening a narrowed value is the identity over the extended reals, twice.
  algebraic_KernelIdeal_ReferenceIdeal: at the ideal instance the kernel's arrays end at the per-half sums over
    sixteen tiles (by induction over the tiles of a half), the host's two-halves sums of them are the reference's
    whole-image sums regrouped by half and tile (only the order of a finite sum changes: no finiteness is used), and
    the loss is one function of the three on both sides.
-/
import proofs.«107126_j81801947120084_1_alg».proof.Defs
import proofs.«107126_j81801947120084_1_alg».proof.Proof.Gen.Kernel
import proofs.«107126_j81801947120084_1_alg».proof.Proof.Gen.KernelIdeal
import proofs.«107126_j81801947120084_1_alg».proof.Proof.Gen.ReferenceIdeal
import proofs.«107126_j81801947120084_1_alg».proof.Proof.Gen.Pre_any_inputs
import proofs.«107126_j81801947120084_1_alg».proof.Proof.Kernel.Frame
import proofs.«107126_j81801947120084_1_alg».proof.Proof.KernelIdeal.Frame
import proofs.«107126_j81801947120084_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Fr.frame (F := Bits) m ρ

theorem frame_ki : Cert.frame_KernelIdeal := fun m ρ _ => Cert.KernelIdeal.Fr.frame (F := Ideal) m ρ

theorem frame_ri : Cert.frame_ReferenceIdeal := fun m ρ _ =>
  (θ_run Cert.ReferenceIdeal.defs _ _).mono (fun _ h c => (h c).2) (Cert.ReferenceIdeal.ValueP.run (F := Ideal) m ρ)

/-- The two ledger entries: the indicator tiles, narrowed to bf16 for the matrix unit and widened again for the row
    sums, are themselves over the extended reals. -/
theorem preserves : Cert.preserves_Kernel_KernelIdeal :=
  ⟨IdealRules.truncf_extf.statement Cert.KernelIdeal.S64x32768 .f32 .bf16,
   IdealRules.truncf_extf.statement Cert.KernelIdeal.S64x32768 .f32 .bf16⟩

/-- Both runs end at the loss of the same three sums of the same two masks. -/
theorem algebraic : Cert.algebraic_KernelIdeal_ReferenceIdeal := by
  intro m ρ m' ρ' _ hagree
  refine ⟨fun c => Cert.KernelIdeal.KV.result m c, Cert.KernelIdeal.KV.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.RefValue.ref_result m' c, (hagree c).1, (hagree c).2]
  exact (Cert.Bridge.result_eq m c).symm

theorem claim : Cert.Claim :=
  ⟨Cert.Kernel.Gen.facts, Cert.KernelIdeal.Gen.facts, Cert.ReferenceIdeal.Gen.facts, Cert.Pre_any_inputs.Gen.facts,
    frame_k, frame_ki, frame_ri, preserves, algebraic⟩

end Cert.Proof

end
